-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S200000 : Shape := ⟨1, ![200000]⟩
abbrev S801109 : Shape := ⟨1, ![801109]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : IVec S200000 32) (main_arg6 : IVec S200000 32) (main_arg7 : IVec S801109 32) (main_arg8 : IVec S801109 32) (main_arg9 : IVec S801109 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S200000 : Shape := ⟨1, ![200000]⟩
abbrev S801109 : Shape := ⟨1, ![801109]⟩
abbrev S_ : Shape := ⟨0, ![]⟩
abbrev S200000x1 : Shape := ⟨2, ![200000, 1]⟩
abbrev S200000x128 : Shape := ⟨2, ![200000, 128]⟩
abbrev S801109x1 : Shape := ⟨2, ![801109, 1]⟩
abbrev S801109x128 : Shape := ⟨2, ![801109, 128]⟩
abbrev S1x128 : Shape := ⟨2, ![1, 128]⟩
abbrev S10000x128 : Shape := ⟨2, ![10000, 128]⟩
abbrev S50000x1 : Shape := ⟨2, ![50000, 1]⟩
abbrev S5000x128 : Shape := ⟨2, ![5000, 128]⟩

abbrev nBuf : Space → Nat
  | .hbm => 107
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S200000, .i32⟩
  | .hbm, ⟨6, _⟩ => ⟨S200000, .i32⟩
  | .hbm, ⟨7, _⟩ => ⟨S801109, .i32⟩
  | .hbm, ⟨8, _⟩ => ⟨S801109, .i32⟩
  | .hbm, ⟨9, _⟩ => ⟨S801109, .i32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S200000x1, .i32⟩
  | .hbm, ⟨18, _⟩ => ⟨S200000x128, .f32⟩
  | .hbm, ⟨19, _⟩ => ⟨S_, .i32⟩
  | .hbm, ⟨20, _⟩ => ⟨S200000, .i32⟩
  | .hbm, ⟨21, _⟩ => ⟨S200000, .i1⟩
  | .hbm, ⟨22, _⟩ => ⟨S_, .i32⟩
  | .hbm, ⟨23, _⟩ => ⟨S200000, .i32⟩
  | .hbm, ⟨24, _⟩ => ⟨S200000, .i32⟩
  | .hbm, ⟨25, _⟩ => ⟨S200000, .i32⟩
  | .hbm, ⟨26, _⟩ => ⟨S200000x1, .i32⟩
  | .hbm, ⟨27, _⟩ => ⟨S200000x128, .f32⟩
  | .hbm, ⟨28, _⟩ => ⟨S200000x128, .f32⟩
  | .hbm, ⟨29, _⟩ => ⟨S_, .f32⟩
  | .hbm, ⟨30, _⟩ => ⟨S200000x128, .f32⟩
  | .hbm, ⟨31, _⟩ => ⟨S200000x128, .f32⟩
  | .hbm, ⟨32, _⟩ => ⟨S_, .i32⟩
  | .hbm, ⟨33, _⟩ => ⟨S801109, .i32⟩
  | .hbm, ⟨34, _⟩ => ⟨S801109, .i1⟩
  | .hbm, ⟨35, _⟩ => ⟨S_, .i32⟩
  | .hbm, ⟨36, _⟩ => ⟨S801109, .i32⟩
  | .hbm, ⟨37, _⟩ => ⟨S801109, .i32⟩
  | .hbm, ⟨38, _⟩ => ⟨S801109, .i32⟩
  | .hbm, ⟨39, _⟩ => ⟨S801109x1, .i32⟩
  | .hbm, ⟨40, _⟩ => ⟨S801109x128, .f32⟩
  | .hbm, ⟨41, _⟩ => ⟨S_, .i32⟩
  | .hbm, ⟨42, _⟩ => ⟨S801109, .i32⟩
  | .hbm, ⟨43, _⟩ => ⟨S801109, .i1⟩
  | .hbm, ⟨44, _⟩ => ⟨S_, .i32⟩
  | .hbm, ⟨45, _⟩ => ⟨S801109, .i32⟩
  | .hbm, ⟨46, _⟩ => ⟨S801109, .i32⟩
  | .hbm, ⟨47, _⟩ => ⟨S801109, .i32⟩
  | .hbm, ⟨48, _⟩ => ⟨S801109x1, .i32⟩
  | .hbm, ⟨49, _⟩ => ⟨S801109x128, .f32⟩
  | .hbm, ⟨50, _⟩ => ⟨S801109x128, .f32⟩
  | .hbm, ⟨51, _⟩ => ⟨S_, .f32⟩
  | .hbm, ⟨52, _⟩ => ⟨S801109x128, .f32⟩
  | .hbm, ⟨53, _⟩ => ⟨S801109x128, .f32⟩
  | .hbm, ⟨54, _⟩ => ⟨S_, .f32⟩
  | .hbm, ⟨55, _⟩ => ⟨S200000x128, .f32⟩
  | .hbm, ⟨56, _⟩ => ⟨S801109x1, .i32⟩
  | .hbm, ⟨57, _⟩ => ⟨S200000x128, .f32⟩
  | .hbm, ⟨58, _⟩ => ⟨S1x128, .f32⟩
  | .hbm, ⟨59, _⟩ => ⟨S1x128, .f32⟩
  | .hbm, ⟨60, _⟩ => ⟨S200000x128, .f32⟩
  | .hbm, ⟨61, _⟩ => ⟨S_, .i32⟩
  | .hbm, ⟨62, _⟩ => ⟨S801109, .i32⟩
  | .hbm, ⟨63, _⟩ => ⟨S801109, .i1⟩
  | .hbm, ⟨64, _⟩ => ⟨S_, .i32⟩
  | .hbm, ⟨65, _⟩ => ⟨S801109, .i32⟩
  | .hbm, ⟨66, _⟩ => ⟨S801109, .i32⟩
  | .hbm, ⟨67, _⟩ => ⟨S801109, .i32⟩
  | .hbm, ⟨68, _⟩ => ⟨S801109x1, .i32⟩
  | .hbm, ⟨69, _⟩ => ⟨S801109x128, .f32⟩
  | .hbm, ⟨70, _⟩ => ⟨S801109x128, .f32⟩
  | .hbm, ⟨71, _⟩ => ⟨S_, .f32⟩
  | .hbm, ⟨72, _⟩ => ⟨S801109x128, .f32⟩
  | .hbm, ⟨73, _⟩ => ⟨S801109x128, .f32⟩
  | .hbm, ⟨74, _⟩ => ⟨S_, .f32⟩
  | .hbm, ⟨75, _⟩ => ⟨S200000x128, .f32⟩
  | .hbm, ⟨76, _⟩ => ⟨S801109x1, .i32⟩
  | .hbm, ⟨77, _⟩ => ⟨S200000x128, .f32⟩
  | .hbm, ⟨78, _⟩ => ⟨S1x128, .f32⟩
  | .hbm, ⟨79, _⟩ => ⟨S1x128, .f32⟩
  | .hbm, ⟨80, _⟩ => ⟨S200000x128, .f32⟩
  | .hbm, ⟨81, _⟩ => ⟨S_, .f32⟩
  | .hbm, ⟨82, _⟩ => ⟨S50000x128, .f32⟩
  | .hbm, ⟨83, _⟩ => ⟨S200000x1, .i32⟩
  | .hbm, ⟨84, _⟩ => ⟨S50000x128, .f32⟩
  | .hbm, ⟨85, _⟩ => ⟨S_, .f32⟩
  | .hbm, ⟨86, _⟩ => ⟨S200000x1, .f32⟩
  | .hbm, ⟨87, _⟩ => ⟨S_, .f32⟩
  | .hbm, ⟨88, _⟩ => ⟨S50000x1, .f32⟩
  | .hbm, ⟨89, _⟩ => ⟨S200000x1, .i32⟩
  | .hbm, ⟨90, _⟩ => ⟨S50000x1, .f32⟩
  | .hbm, ⟨91, _⟩ => ⟨S_, .f32⟩
  | .hbm, ⟨92, _⟩ => ⟨S50000x1, .f32⟩
  | .hbm, ⟨93, _⟩ => ⟨S50000x1, .i1⟩
  | .hbm, ⟨94, _⟩ => ⟨S_, .f32⟩
  | .hbm, ⟨95, _⟩ => ⟨S50000x1, .f32⟩
  | .hbm, ⟨96, _⟩ => ⟨S50000x1, .f32⟩
  | .hbm, ⟨97, _⟩ => ⟨S_, .f32⟩
  | .hbm, ⟨98, _⟩ => ⟨S50000x1, .f32⟩
  | .hbm, ⟨99, _⟩ => ⟨S50000x1, .f32⟩
  | .hbm, ⟨100, _⟩ => ⟨S_, .f32⟩
  | .hbm, ⟨101, _⟩ => ⟨S_, .f32⟩
  | .hbm, ⟨102, _⟩ => ⟨S50000x1, .f32⟩
  | .hbm, ⟨103, _⟩ => ⟨S50000x1, .f32⟩
  | .hbm, ⟨104, _⟩ => ⟨S50000x128, .f32⟩
  | .hbm, ⟨105, _⟩ => ⟨S50000x128, .f32⟩
  | .hbm, ⟨106, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call0_cst : Ref sig .tc := ⟨.hbm, 51, rfl⟩
abbrev main_call0_v0 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_cst_15 : Ref sig .tc := ⟨.hbm, 94, rfl⟩
abbrev main_v63 : Ref sig .tc := ⟨.hbm, 95, rfl⟩
abbrev main_v64 : Ref sig .tc := ⟨.hbm, 96, rfl⟩
abbrev main_cst_16 : Ref sig .tc := ⟨.hbm, 97, rfl⟩
abbrev main_v65 : Ref sig .tc := ⟨.hbm, 98, rfl⟩
abbrev main_v66 : Ref sig .tc := ⟨.hbm, 99, rfl⟩
abbrev main_cst_17 : Ref sig .tc := ⟨.hbm, 100, rfl⟩
abbrev main_call2_v0 : Ref sig .tc := ⟨.hbm, 101, rfl⟩
abbrev main_call2_v1 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S200000x128 : S_.BroadcastsInDim S200000x128 (![] : Fin 0 → Fin S200000x128.rank)
  bcast_S_S801109 : S_.BroadcastsInDim S801109 (![] : Fin 0 → Fin S801109.rank)
  bcast_S801109_S801109x1_0 : S801109.BroadcastsInDim S801109x1 (![0] : Fin 1 → Fin S801109x1.rank)
  bcast_S_S801109x128 : S_.BroadcastsInDim S801109x128 (![] : Fin 0 → Fin S801109x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S50000x128 : S_.BroadcastsInDim S50000x128 (![] : Fin 0 → Fin S50000x128.rank)
  bcast_S_S200000x1 : S_.BroadcastsInDim S200000x1 (![] : Fin 0 → Fin S200000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  gather_S50000x128_S200000x1_S200000x128_1_0_n_n_0_1_1128_wf : GatherDims.WF S50000x128 S200000x1 S200000x128 [1] [0] [] [0] [] 1 ![1, 128]
  gather_S50000x128_S801109x1_S801109x128_1_0_n_n_0_1_1128_wf : GatherDims.WF S50000x128 S801109x1 S801109x128 [1] [0] [] [0] [] 1 ![1, 128]
  gather_S200000x128_S801109x1_S801109x128_1_0_n_n_0_1_1128_wf : GatherDims.WF S200000x128 S801109x1 S801109x128 [1] [0] [] [0] [] 1 ![1, 128]
  scatter_S200000x128_S801109x1_S801109x128_1_0_0_1_wf : ScatterDims.WF S200000x128 S801109x1 S801109x128 [1] [0] [0] 1
  dot_S10000x128_S128x128_S10000x128_1_0_0_1_n_n_wf : DotDims.WF S10000x128 S128x128 S10000x128 [1] [0] [0] [1] [] []
  scatter_S50000x128_S200000x1_S200000x128_1_0_0_1_wf : ScatterDims.WF S50000x128 S200000x1 S200000x128 [1] [0] [0] 1
  scatter_S50000x1_S200000x1_S200000x1_1_0_0_1_wf : ScatterDims.WF S50000x1 S200000x1 S200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S200000x128.size a
  hwx0_1 : ∀ i : grid0.Coords, EltTy.bits .f32 = 32 ∨ (Rect.block (s := S200000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S200000x128.size a
  hwx0_6 : ∀ i : grid0.Coords, EltTy.bits .f32 = 32 ∨ (Rect.block (s := S200000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S200000x128.size a
  hwx1_0 : ∀ i : grid1.Coords, EltTy.bits .f32 = 32 ∨ (Rect.block (s := S200000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S200000x128.size a
  hwx1_1 : ∀ i : grid1.Coords, EltTy.bits .f32 = 32 ∨ (Rect.block (s := S200000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S200000x128.size a
  hwx1_6 : ∀ i : grid1.Coords, EltTy.bits .f32 = 32 ∨ (Rect.block (s := S200000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def gather_S50000x128_S801109x1_S801109x128_1_0_n_n_0_1_1128 : GatherDims S50000x128 S801109x1 S801109x128 where
  offsetDims := [1]
  collapsedSliceDims := [0]
  operandBatchingDims := []
  startIndicesBatchingDims := []
  startIndexMap := [0]
  indexVectorDim := 1
  sliceSizes := ![1, 128]
  wf := gather_S50000x128_S801109x1_S801109x128_1_0_n_n_0_1_1128_wf
def gather_S200000x128_S801109x1_S801109x128_1_0_n_n_0_1_1128 : GatherDims S200000x128 S801109x1 S801109x128 where
  offsetDims := [1]
  collapsedSliceDims := [0]
  operandBatchingDims := []
  startIndicesBatchingDims := []
  startIndexMap := [0]
  indexVectorDim := 1
  sliceSizes := ![1, 128]
  wf := gather_S200000x128_S801109x1_S801109x128_1_0_n_n_0_1_1128_wf
def scatter_S200000x128_S801109x1_S801109x128_1_0_0_1 : ScatterDims S200000x128 S801109x1 S801109x128 where
  updateWindowDims := [1]
  insertedWindowDims := [0]
  scatterDimsToOperandDims := [0]
  indexVectorDim := 1
  wf := scatter_S200000x128_S801109x1_S801109x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def scatter_S50000x1_S200000x1_S200000x1_1_0_0_1 : ScatterDims S50000x1 S200000x1 S200000x1 where
  updateWindowDims := [1]
  insertedWindowDims := [0]
  scatterDimsToOperandDims := [0]
  indexVectorDim := 1
  wf := scatter_S50000x1_S200000x1_S200000x1_1_0_0_1_wf

abbrev win0_0 : Pipeline.Window sig grid0 :=
  Pipeline.Window.ofSpec (Memref.whole main_v16) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v69) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v70) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S200000 : Shape := ⟨1, ![200000]⟩
abbrev S801109 : Shape := ⟨1, ![801109]⟩
abbrev S_ : Shape := ⟨0, ![]⟩
abbrev S200000x1 : Shape := ⟨2, ![200000, 1]⟩
abbrev S200000x128 : Shape := ⟨2, ![200000, 128]⟩
abbrev S801109x1 : Shape := ⟨2, ![801109, 1]⟩
abbrev S801109x128 : Shape := ⟨2, ![801109, 128]⟩
abbrev S1x128 : Shape := ⟨2, ![1, 128]⟩
abbrev S50000x1 : Shape := ⟨2, ![50000, 1]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S200000, .i32⟩
  | .hbm, ⟨6, _⟩ => ⟨S200000, .i32⟩
  | .hbm, ⟨7, _⟩ => ⟨S801109, .i32⟩
  | .hbm, ⟨8, _⟩ => ⟨S801109, .i32⟩
  | .hbm, ⟨9, _⟩ => ⟨S801109, .i32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S200000x1, .i32⟩
  | .hbm, ⟨18, _⟩ => ⟨S200000x128, .f32⟩
  | .hbm, ⟨19, _⟩ => ⟨S_, .i32⟩
  | .hbm, ⟨20, _⟩ => ⟨S200000, .i32⟩
  | .hbm, ⟨21, _⟩ => ⟨S200000, .i1⟩
  | .hbm, ⟨22, _⟩ => ⟨S_, .i32⟩
  | .hbm, ⟨23, _⟩ => ⟨S200000, .i32⟩
  | .hbm, ⟨24, _⟩ => ⟨S200000, .i32⟩
  | .hbm, ⟨25, _⟩ => ⟨S200000, .i32⟩
  | .hbm, ⟨26, _⟩ => ⟨S200000x1, .i32⟩
  | .hbm, ⟨27, _⟩ => ⟨S200000x128, .f32⟩
  | .hbm, ⟨28, _⟩ => ⟨S200000x128, .f32⟩
  | .hbm, ⟨29, _⟩ => ⟨S_, .f32⟩
  | .hbm, ⟨30, _⟩ => ⟨S200000x128, .f32⟩
  | .hbm, ⟨31, _⟩ => ⟨S200000x128, .f32⟩
  | .hbm, ⟨32, _⟩ => ⟨S_, .i32⟩
  | .hbm, ⟨33, _⟩ => ⟨S801109, .i32⟩
  | .hbm, ⟨34, _⟩ => ⟨S801109, .i1⟩
  | .hbm, ⟨35, _⟩ => ⟨S_, .i32⟩
  | .hbm, ⟨36, _⟩ => ⟨S801109, .i32⟩
  | .hbm, ⟨37, _⟩ => ⟨S801109, .i32⟩
  | .hbm, ⟨38, _⟩ => ⟨S801109, .i32⟩
  | .hbm, ⟨39, _⟩ => ⟨S801109x1, .i32⟩
  | .hbm, ⟨40, _⟩ => ⟨S801109x128, .f32⟩
  | .hbm, ⟨41, _⟩ => ⟨S_, .i32⟩
  | .hbm, ⟨42, _⟩ => ⟨S801109, .i32⟩
  | .hbm, ⟨43, _⟩ => ⟨S801109, .i1⟩
  | .hbm, ⟨44, _⟩ => ⟨S_, .i32⟩
  | .hbm, ⟨45, _⟩ => ⟨S801109, .i32⟩
  | .hbm, ⟨46, _⟩ => ⟨S801109, .i32⟩
  | .hbm, ⟨47, _⟩ => ⟨S801109, .i32⟩
  | .hbm, ⟨48, _⟩ => ⟨S801109x1, .i32⟩
  | .hbm, ⟨49, _⟩ => ⟨S801109x128, .f32⟩
  | .hbm, ⟨50, _⟩ => ⟨S801109x128, .f32⟩
  | .hbm, ⟨51, _⟩ => ⟨S_, .f32⟩
  | .hbm, ⟨52, _⟩ => ⟨S801109x128, .f32⟩
  | .hbm, ⟨53, _⟩ => ⟨S801109x128, .f32⟩
  | .hbm, ⟨54, _⟩ => ⟨S_, .f32⟩
  | .hbm, ⟨55, _⟩ => ⟨S200000x128, .f32⟩
  | .hbm, ⟨56, _⟩ => ⟨S801109x1, .i32⟩
  | .hbm, ⟨57, _⟩ => ⟨S200000x128, .f32⟩
  | .hbm, ⟨58, _⟩ => ⟨S200000x128, .f32⟩
  | .hbm, ⟨59, _⟩ => ⟨S200000x128, .f32⟩
  | .hbm, ⟨60, _⟩ => ⟨S1x128, .f32⟩
  | .hbm, ⟨61, _⟩ => ⟨S200000x128, .f32⟩
  | .hbm, ⟨62, _⟩ => ⟨S200000x128, .f32⟩
  | .hbm, ⟨63, _⟩ => ⟨S_, .f32⟩
  | .hbm, ⟨64, _⟩ => ⟨S200000x128, .f32⟩
  | .hbm, ⟨65, _⟩ => ⟨S200000x128, .f32⟩
  | .hbm, ⟨66, _⟩ => ⟨S200000x128, .f32⟩
  | .hbm, ⟨67, _⟩ => ⟨S1x128, .f32⟩
  | .hbm, ⟨68, _⟩ => ⟨S200000x128, .f32⟩
  | .hbm, ⟨69, _⟩ => ⟨S200000x128, .f32⟩
  | .hbm, ⟨70, _⟩ => ⟨S_, .i32⟩
  | .hbm, ⟨71, _⟩ => ⟨S801109, .i32⟩
  | .hbm, ⟨72, _⟩ => ⟨S801109, .i1⟩
  | .hbm, ⟨73, _⟩ => ⟨S_, .i32⟩
  | .hbm, ⟨74, _⟩ => ⟨S801109, .i32⟩
  | .hbm, ⟨75, _⟩ => ⟨S801109, .i32⟩
  | .hbm, ⟨76, _⟩ => ⟨S801109, .i32⟩
  | .hbm, ⟨77, _⟩ => ⟨S801109x1, .i32⟩
  | .hbm, ⟨78, _⟩ => ⟨S801109x128, .f32⟩
  | .hbm, ⟨79, _⟩ => ⟨S801109x128, .f32⟩
  | .hbm, ⟨80, _⟩ => ⟨S_, .f32⟩
  | .hbm, ⟨81, _⟩ => ⟨S801109x128, .f32⟩
  | .hbm, ⟨82, _⟩ => ⟨S801109x128, .f32⟩
  | .hbm, ⟨83, _⟩ => ⟨S_, .f32⟩
  | .hbm, ⟨84, _⟩ => ⟨S200000x128, .f32⟩
  | .hbm, ⟨85, _⟩ => ⟨S801109x1, .i32⟩
  | .hbm, ⟨86, _⟩ => ⟨S200000x128, .f32⟩
  | .hbm, ⟨87, _⟩ => ⟨S200000x128, .f32⟩
  | .hbm, ⟨88, _⟩ => ⟨S200000x128, .f32⟩
  | .hbm, ⟨89, _⟩ => ⟨S1x128, .f32⟩
  | .hbm, ⟨90, _⟩ => ⟨S200000x128, .f32⟩
  | .hbm, ⟨91, _⟩ => ⟨S200000x128, .f32⟩
  | .hbm, ⟨92, _⟩ => ⟨S_, .f32⟩
  | .hbm, ⟨93, _⟩ => ⟨S200000x128, .f32⟩
  | .hbm, ⟨94, _⟩ => ⟨S200000x128, .f32⟩
  | .hbm, ⟨95, _⟩ => ⟨S200000x128, .f32⟩
  | .hbm, ⟨96, _⟩ => ⟨S1x128, .f32⟩
  | .hbm, ⟨97, _⟩ => ⟨S200000x128, .f32⟩
  | .hbm, ⟨98, _⟩ => ⟨S200000x128, .f32⟩
  | .hbm, ⟨99, _⟩ => ⟨S_, .f32⟩
  | .hbm, ⟨100, _⟩ => ⟨S50000x128, .f32⟩
  | .hbm, ⟨101, _⟩ => ⟨S200000x1, .i32⟩
  | .hbm, ⟨102, _⟩ => ⟨S50000x128, .f32⟩
  | .hbm, ⟨103, _⟩ => ⟨S_, .f32⟩
  | .hbm, ⟨104, _⟩ => ⟨S200000x1, .f32⟩
  | .hbm, ⟨105, _⟩ => ⟨S_, .f32⟩
  | .hbm, ⟨106, _⟩ => ⟨S50000x1, .f32⟩
  | .hbm, ⟨107, _⟩ => ⟨S200000x1, .i32⟩
  | .hbm, ⟨108, _⟩ => ⟨S50000x1, .f32⟩
  | .hbm, ⟨109, _⟩ => ⟨S_, .f32⟩
  | .hbm, ⟨110, _⟩ => ⟨S50000x1, .f32⟩
  | .hbm, ⟨111, _⟩ => ⟨S50000x1, .i1⟩
  | .hbm, ⟨112, _⟩ => ⟨S_, .f32⟩
  | .hbm, ⟨113, _⟩ => ⟨S50000x1, .f32⟩
  | .hbm, ⟨114, _⟩ => ⟨S50000x1, .f32⟩
  | .hbm, ⟨115, _⟩ => ⟨S50000x128, .f32⟩
  | .hbm, ⟨116, _⟩ => ⟨S50000x128, .f32⟩
  | .hbm, ⟨117, _⟩ => ⟨S_, .f32⟩
  | .hbm, ⟨118, _⟩ => ⟨S_, .f32⟩
  | .hbm, ⟨119, _⟩ => ⟨S50000x128, .i1⟩
  | .hbm, ⟨120, _⟩ => ⟨S50000x128, .f32⟩
  | .hbm, ⟨121, _⟩ => ⟨S50000x128, .f32⟩
  | .hbm, ⟨122, _⟩ => ⟨S_, .f32⟩
  | .hbm, ⟨123, _⟩ => ⟨S50000x128, .f32⟩
  | .hbm, ⟨124, _⟩ => ⟨S50000x128, .f32⟩
  | .hbm, ⟨125, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call0_cst : Ref sig .tc := ⟨.hbm, 51, rfl⟩
abbrev main_call0_v0 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call1_cst : Ref sig .tc := ⟨.hbm, 63, rfl⟩
abbrev main_call1_v0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call2_cst : Ref sig .tc := ⟨.hbm, 80, rfl⟩
abbrev main_call2_v0 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call3_cst : Ref sig .tc := ⟨.hbm, 92, rfl⟩
abbrev main_call3_v0 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_11 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_14 : Ref sig .tc := ⟨.hbm, 109, rfl⟩
abbrev main_v75 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_v81 : Ref sig .tc := ⟨.hbm, 121, rfl⟩
abbrev main_call5_cst : Ref sig .tc := ⟨.hbm, 122, rfl⟩
abbrev main_call5_v0 : Ref sig .tc := ⟨.hbm, 123, rfl⟩
abbrev main_v82 : Ref sig .tc := ⟨.hbm, 124, rfl⟩
abbrev main_v83 : Ref sig .tc := ⟨.hbm, 125, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S200000x128 : S_.BroadcastsInDim S200000x128 (![] : Fin 0 → Fin S200000x128.rank)
  bcast_S_S801109 : S_.BroadcastsInDim S801109 (![] : Fin 0 → Fin S801109.rank)
  bcast_S801109_S801109x1_0 : S801109.BroadcastsInDim S801109x1 (![0] : Fin 1 → Fin S801109x1.rank)
  bcast_S_S801109x128 : S_.BroadcastsInDim S801109x128 (![] : Fin 0 → Fin S801109x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S50000x128 : S_.BroadcastsInDim S50000x128 (![] : Fin 0 → Fin S50000x128.rank)
  bcast_S_S200000x1 : S_.BroadcastsInDim S200000x1 (![] : Fin 0 → Fin S200000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S200000x1_S200000x128_1_0_n_n_0_1_1128_wf : GatherDims.WF S50000x128 S200000x1 S200000x128 [1] [0] [] [0] [] 1 ![1, 128]
  gather_S50000x128_S801109x1_S801109x128_1_0_n_n_0_1_1128_wf : GatherDims.WF S50000x128 S801109x1 S801109x128 [1] [0] [] [0] [] 1 ![1, 128]
  gather_S200000x128_S801109x1_S801109x128_1_0_n_n_0_1_1128_wf : GatherDims.WF S200000x128 S801109x1 S801109x128 [1] [0] [] [0] [] 1 ![1, 128]
  scatter_S200000x128_S801109x1_S801109x128_1_0_0_1_wf : ScatterDims.WF S200000x128 S801109x1 S801109x128 [1] [0] [0] 1
  dot_S200000x128_S128x128_S200000x128_1_0_0_1_n_n_wf : DotDims.WF S200000x128 S128x128 S200000x128 [1] [0] [0] [1] [] []
  scatter_S50000x128_S200000x1_S200000x128_1_0_0_1_wf : ScatterDims.WF S50000x128 S200000x1 S200000x128 [1] [0] [0] 1
  scatter_S50000x1_S200000x1_S200000x1_1_0_0_1_wf : ScatterDims.WF S50000x1 S200000x1 S200000x1 [1] [0] [0] 1

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def gather_S50000x128_S801109x1_S801109x128_1_0_n_n_0_1_1128 : GatherDims S50000x128 S801109x1 S801109x128 where
  offsetDims := [1]
  collapsedSliceDims := [0]
  operandBatchingDims := []
  startIndicesBatchingDims := []
  startIndexMap := [0]
  indexVectorDim := 1
  sliceSizes := ![1, 128]
  wf := gather_S50000x128_S801109x1_S801109x128_1_0_n_n_0_1_1128_wf
def gather_S200000x128_S801109x1_S801109x128_1_0_n_n_0_1_1128 : GatherDims S200000x128 S801109x1 S801109x128 where
  offsetDims := [1]
  collapsedSliceDims := [0]
  operandBatchingDims := []
  startIndicesBatchingDims := []
  startIndexMap := [0]
  indexVectorDim := 1
  sliceSizes := ![1, 128]
  wf := gather_S200000x128_S801109x1_S801109x128_1_0_n_n_0_1_1128_wf
def scatter_S200000x128_S801109x1_S801109x128_1_0_0_1 : ScatterDims S200000x128 S801109x1 S801109x128 where
  updateWindowDims := [1]
  insertedWindowDims := [0]
  scatterDimsToOperandDims := [0]
  indexVectorDim := 1
  wf := scatter_S200000x128_S801109x1_S801109x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def scatter_S50000x1_S200000x1_S200000x1_1_0_0_1 : ScatterDims S50000x1 S200000x1 S200000x1 where
  updateWindowDims := [1]
  insertedWindowDims := [0]
  scatterDimsToOperandDims := [0]
  indexVectorDim := 1
  wf := scatter_S50000x1_S200000x1_S200000x1_1_0_0_1_wf

class Facts : Prop extends Facts₀ where

variable [Facts]
-- ==== Proof.MlpPayload.lean ====
/-
  One row block of the GIN perceptron, read entry by entry over the extended reals.

  The kernel body takes a block X of line-graph node features and the block A of the messages aggregated at the
  same nodes (both 10000 × 128), the weight matrices W₁, W₂ (128 × 128) and the bias rows b₁, b₂ (1 × 128), and
  stores  relu((X + A) · W₁ + b₁) · W₂ + b₂.  Each matrix product runs into a zero accumulator, so over the
  extended reals it is the plain sum over the contracted axis; a bias row is read at its row 0; relu is the
  maximum with the zero word. Entry (p, q) of the stored block is therefore
      Σₖ max(Σⱼ (X p j + A p j) · W₁ j k + b₁ 0 k, 0) · W₂ k q + b₂ 0 q,
  which is `mlpEntry` below; it is stated for any number of rows, because the whole array of 200000 rows is the
  same formula row by row.
-/
import proofs.«426953_j12463995093126_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.Gine

open Cert.KernelIdeal Cert.KernelIdeal.Gen

/-- Entry (p, q) of relu((X + A)·W₁ + b₁)·W₂ + b₂ for matrices X, A of `n` rows and 128 columns. The zero of relu is
    kept as the word the programs print, so that both programs spell it alike. -/
def mlpEntry {n : Nat} (X A : (⟨2, ![n, 128]⟩ : Shape).Idx → EReal) (W1 : (⟨2, ![128, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) (p : Fin n) (q : Fin 128) : EReal :=
  (∑ k : Fin 128, max ((∑ j : Fin 128, (X (ix2 p j) + A (ix2 p j)) * W1 (ix2 j k)) + b1 (ix2 (0 : Fin 1) k))
      (Ideal.ofBits .f32 0x00000000#32) * W2 (ix2 k q)) + b2 (ix2 (0 : Fin 1) q)

/-! ## The block product's operand indices, axis by axis -/

theorem lhs_blockDot_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_blockDot_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_blockDot_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_blockDot_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A row block times a square matrix into a zero accumulator: entry (p, q) is Σₖ L p k · R k q. -/
theorem blockMatmul_apply (L : FVec Ideal S10000x128 .f32) (R : FVec Ideal S128x128 .f32) (p : Fin 10000) (q : Fin 128) :
    matmul dot_S10000x128_S128x128_S10000x128_1_0_0_1_n_n none L R (constant S10000x128 .f32 0x00000000#32) (ix2 p q)
      = ∑ k : Fin 128, L (ix2 p k) * R (ix2 k q) := by
  refine (Ideal.matmul_constant_zero_apply dot_S10000x128_S128x128_S10000x128_1_0_0_1_n_n none L R (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_blockDot_0 _ _
    | ⟨1, _⟩ => exact (lhs_blockDot_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_blockDot_0 _ _).trans hk
    | ⟨1, _⟩ => exact rhs_blockDot_1 _ _)
  rw [el, er]

/-- A bias row spread over the block's rows reads the row's column. -/
theorem biasRow_apply (b : FVec Ideal S1x128 .f32) (p : Fin 10000) (q : Fin 128) :
    broadcastTo S10000x128 b broadcasts_S1x128_S10000x128 (ix2 p q) = b (ix2 (0 : Fin 1) q) :=
  broadcastTo_apply b broadcasts_S1x128_S10000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- What the perceptron's body stores, at entry (p, q), from the six blocks it loaded. -/
theorem mlp_payload_apply (x0 x1 : Vec Ideal S10000x128 .f32) (x2 : Vec Ideal S128x128 .f32) (x3 : Vec Ideal S1x128 .f32)
    (x4 : Vec Ideal S128x128 .f32) (x5 : Vec Ideal S1x128 .f32) (p : Fin 10000) (q : Fin 128) :
    k0_pay1 (F := Ideal) x0 x1 x2 x3 x4 x5 (ix2 p q) = mlpEntry x0 x1 x2 x3 x4 x5 p q := by
  unfold k0_pay1 mlpEntry
  simp only [shapeCast_self]
  rw [addf_apply, blockMatmul_apply, biasRow_apply]
  refine congrArg (· + x5 (ix2 (0 : Fin 1) q)) (Finset.sum_congr rfl fun k _ => ?_)
  rw [maximumf_apply, addf_apply, blockMatmul_apply, biasRow_apply, broadcast_apply]
  refine congrArg (fun z => max (z + x3 (ix2 (0 : Fin 1) k)) _ * x4 (ix2 k q)) (Finset.sum_congr rfl fun j _ => ?_)
  rw [addf_apply]

/-- The second perceptron call runs the same body. -/
theorem mlp_payload_apply' (x0 x1 : Vec Ideal S10000x128 .f32) (x2 : Vec Ideal S128x128 .f32) (x3 : Vec Ideal S1x128 .f32)
    (x4 : Vec Ideal S128x128 .f32) (x5 : Vec Ideal S1x128 .f32) (p : Fin 10000) (q : Fin 128) :
    k1_pay1 (F := Ideal) x0 x1 x2 x3 x4 x5 (ix2 p q) = mlpEntry x0 x1 x2 x3 x4 x5 p q :=
  mlp_payload_apply x0 x1 x2 x3 x4 x5 p q

end Cert.Gine

end
-- ==== Proof.RegionFinal.lean ====
/-
  What each of the three kernel calls leaves in its result array, as ONE function of the arrays the call found.

  A perceptron call walks its 200000 rows in 20 blocks of 10000: at point t it reads rows 10000·t … 10000·t + 9999
  of the feature array and of the aggregated-message array, the whole of both weight matrices and both bias rows,
  and writes the same rows of its result. What the body stores at entry (p, q) of the block is `mlpEntry` of the
  blocks (the payload lemma); `mlpEntry` looks only at row p of the two row-blocked operands, and row p of block t
  is row 10000·t + p of the array, so the block written back is block t of `mlpArray`, the same formula on whole
  arrays. The 20 blocks tile the rows (row r lies in block r / 10000), hence the result array ends at `mlpArray`.

  The last call walks its 50000 rows in 10 blocks of 5000 and stores x + max(g, 0) entry by entry, where g is the
  averaged aggregate; the same argument gives `residualArray`.

  All of it is stated at a parameter `V`, the contents the region finds, as the frame's own proof data are.
-/
import proofs.«426953_j12463995093126_3_alg».proof.Proof.Gen.KernelIdeal.Frame
import proofs.«426953_j12463995093126_3_alg».proof.Proof.MlpPayload
import Idealize.ShloMosaic.Lib.Pipeline.Value
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.Gine

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-! ## The two whole-array functions -/

/-- The perceptron layer on arrays of 200000 rows: `mlpEntry`, row by row. -/
def mlpArray (X A : S200000x128.Idx → EReal) (W1 : S128x128.Idx → EReal) (b1 : S1x128.Idx → EReal)
    (W2 : S128x128.Idx → EReal) (b2 : S1x128.Idx → EReal) : S200000x128.Idx → EReal :=
  fun i => mlpEntry X A W1 b1 W2 b2 (⟨(i 0).val, (i 0).isLt⟩ : Fin 200000) (⟨(i 1).val, (i 1).isLt⟩ : Fin 128)

/-- The residual step on arrays of 50000 rows: x + max(g, 0), entry by entry. -/
def residualArray (g x : S50000x128.Idx → EReal) : S50000x128.Idx → EReal :=
  fun i => x i + max (g i) (Ideal.ofBits .f32 0x00000000#32)

/-- `mlpEntry` at (p, q) reads row p of its two row-blocked operands and nothing else of them: two sets of operands
    that agree there, and on the weights and biases, give the same entry. -/
theorem mlpEntry_congr {n n' : Nat} (X A : (⟨2, ![n, 128]⟩ : Shape).Idx → EReal) (X' A' : (⟨2, ![n', 128]⟩ : Shape).Idx → EReal)
    (W1 W1' : (⟨2, ![128, 128]⟩ : Shape).Idx → EReal) (b1 b1' : (⟨2, ![1, 128]⟩ : Shape).Idx → EReal)
    (W2 W2' : (⟨2, ![128, 128]⟩ : Shape).Idx → EReal) (b2 b2' : (⟨2, ![1, 128]⟩ : Shape).Idx → EReal)
    (p : Fin n) (r : Fin n') (q q' : Fin 128)
    (hX : ∀ j : Fin 128, X (ix2 p j) = X' (ix2 r j)) (hA : ∀ j : Fin 128, A (ix2 p j) = A' (ix2 r j))
    (hW1 : ∀ j k : Fin 128, W1 (ix2 j k) = W1' (ix2 j k)) (hb1 : ∀ k : Fin 128, b1 (ix2 (0 : Fin 1) k) = b1' (ix2 (0 : Fin 1) k))
    (hW2 : ∀ j k : Fin 128, W2 (ix2 j k) = W2' (ix2 j k)) (hb2 : ∀ k : Fin 128, b2 (ix2 (0 : Fin 1) k) = b2' (ix2 (0 : Fin 1) k))
    (hq : q = q') :
    mlpEntry X A W1 b1 W2 b2 p q = mlpEntry X' A' W1' b1' W2' b2' r q' := by
  subst hq
  unfold mlpEntry
  simp only [hX, hA, hW1, hb1, hW2, hb2]

/-- What the residual body stores, entry by entry, from the two blocks it loaded (x first, then g). -/
theorem residual_payload_apply (v0 v1 : Vec Ideal S5000x128 .f32) (y : S5000x128.Idx) :
    k2_pay1 (F := Ideal) v0 v1 y = v0 y + max (v1 y) (Ideal.ofBits .f32 0x00000000#32) := by
  unfold k2_pay1
  simp only [shapeCast_self]
  rfl

/-! ## The first perceptron call (region 0) -/

/-- The printed index maps of region 0, decided over its 20 points: the three row-blocked windows sit at block
    (t, 0), the weights and biases at block (0, 0). -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the feature block at point t is row 10000·t + p of the feature array. -/
theorem featBlock0 (c : Dev nD) (t : Fin cfg0.N) (p : Fin 10000) (j : Fin 128) (r : Fin 200000) (hr : r.val = t.val * 10000 + p.val) :
    (iblk0 V c 0 t : Vec Ideal S10000x128 .f32) (ix2 p j) = (V c main_v16 : S200000x128.Idx → EReal) (ix2 r j) := by
  obtain ⟨e0, e1, -⟩ := blockIndex0 t
  unfold iblk0
  rw [View.read_apply]
  show V c main_v16 _ = V c main_v16 _
  congr 1
  funext a; apply Fin.ext
  match a with
  | ⟨0, _⟩ => show win0_0.index t (0 : Fin 2) * 10000 + 1 * p.val = r.val; rw [e0, hr]; omega
  | ⟨1, _⟩ => show win0_0.index t (1 : Fin 2) * 128 + 1 * j.val = j.val; rw [e1]; omega

/-- The same for the aggregated messages. -/
theorem aggrBlock0 (c : Dev nD) (t : Fin cfg0.N) (p : Fin 10000) (j : Fin 128) (r : Fin 200000) (hr : r.val = t.val * 10000 + p.val) :
    (iblk0 V c 1 t : Vec Ideal S10000x128 .f32) (ix2 p j) = (V c main_v35 : S200000x128.Idx → EReal) (ix2 r j) := by
  obtain ⟨-, -, e0, e1, -⟩ := blockIndex0 t
  unfold iblk0
  rw [View.read_apply]
  show V c main_v35 _ = V c main_v35 _
  congr 1
  funext a; apply Fin.ext
  match a with
  | ⟨0, _⟩ => show win0_1.index t (0 : Fin 2) * 10000 + 1 * p.val = r.val; rw [e0, hr]; omega
  | ⟨1, _⟩ => show win0_1.index t (1 : Fin 2) * 128 + 1 * j.val = j.val; rw [e1]; omega

/-- A weight or bias window's one block is the whole array. -/
theorem weightA0 (c : Dev nD) (t : Fin cfg0.N) (j k : Fin 128) :
    (iblk0 V c 2 t : Vec Ideal S128x128 .f32) (ix2 j k) = (V c main_arg1 : S128x128.Idx → EReal) (ix2 j k) := by
  obtain ⟨-, -, -, -, e0, e1, -⟩ := blockIndex0 t
  unfold iblk0
  rw [View.read_apply]
  show V c main_arg1 _ = V c main_arg1 _
  congr 1
  funext a; apply Fin.ext
  match a with
  | ⟨0, _⟩ => show win0_2.index t (0 : Fin 2) * 128 + 1 * j.val = j.val; rw [e0]; omega
  | ⟨1, _⟩ => show win0_2.index t (1 : Fin 2) * 128 + 1 * k.val = k.val; rw [e1]; omega
theorem biasA0 (c : Dev nD) (t : Fin cfg0.N) (k : Fin 128) :
    (iblk0 V c 3 t : Vec Ideal S1x128 .f32) (ix2 (0 : Fin 1) k) = (V c main_v36 : S1x128.Idx → EReal) (ix2 (0 : Fin 1) k) := by
  obtain ⟨-, -, -, -, -, -, e0, e1, -⟩ := blockIndex0 t
  unfold iblk0
  rw [View.read_apply]
  show V c main_v36 _ = V c main_v36 _
  congr 1
  funext a; apply Fin.ext
  match a with
  | ⟨0, _⟩ => show win0_3.index t (0 : Fin 2) * 1 + 1 * 0 = 0; rw [e0]
  | ⟨1, _⟩ => show win0_3.index t (1 : Fin 2) * 128 + 1 * k.val = k.val; rw [e1]; omega
theorem weightB0 (c : Dev nD) (t : Fin cfg0.N) (j k : Fin 128) :
    (iblk0 V c 4 t : Vec Ideal S128x128 .f32) (ix2 j k) = (V c main_arg3 : S128x128.Idx → EReal) (ix2 j k) := by
  obtain ⟨-, -, -, -, -, -, -, -, e0, e1, -⟩ := blockIndex0 t
  unfold iblk0
  rw [View.read_apply]
  show V c main_arg3 _ = V c main_arg3 _
  congr 1
  funext a; apply Fin.ext
  match a with
  | ⟨0, _⟩ => show win0_4.index t (0 : Fin 2) * 128 + 1 * j.val = j.val; rw [e0]; omega
  | ⟨1, _⟩ => show win0_4.index t (1 : Fin 2) * 128 + 1 * k.val = k.val; rw [e1]; omega
theorem biasB0 (c : Dev nD) (t : Fin cfg0.N) (k : Fin 128) :
    (iblk0 V c 5 t : Vec Ideal S1x128 .f32) (ix2 (0 : Fin 1) k) = (V c main_v37 : S1x128.Idx → EReal) (ix2 (0 : Fin 1) k) := by
  obtain ⟨-, -, -, -, -, -, -, -, -, -, e0, e1, -⟩ := blockIndex0 t
  unfold iblk0
  rw [View.read_apply]
  show V c main_v37 _ = V c main_v37 _
  congr 1
  funext a; apply Fin.ext
  match a with
  | ⟨0, _⟩ => show win0_5.index t (0 : Fin 2) * 1 + 1 * 0 = 0; rw [e0]
  | ⟨1, _⟩ => show win0_5.index t (1 : Fin 2) * 128 + 1 * k.val = k.val; rw [e1]; omega

/-- WHAT POINT t WRITES BACK is block t of `mlpArray` of the arrays region 0 found. -/
theorem writtenBack0 (c : Dev nD) (t : Fin cfg0.N) :
    (dat0 V c).flushed 6 t = ((cfg0.win 6).blk t).view.read (Elt Ideal)
      (mlpArray (V c main_v16) (V c main_v35) (V c main_arg1) (V c main_v36) (V c main_arg3) (V c main_v37)) := by
  obtain ⟨-, -, -, -, -, -, -, -, -, -, -, -, e0, e1⟩ := blockIndex0 t
  show (cfg0.win 6).cut (grid0.coords t) ((dat0 V c).after 6 t) = _
  rw [after0_6]
  unfold out0_6
  rw [View.canon_unit_zero zeroOffsets]
  simp only [View.ld_unit_zero (S := S10000x128) zeroOffsets, View.ld_unit_zero (S := S128x128) zeroOffsets, View.ld_unit_zero (S := S1x128) zeroOffsets]
  funext y
  obtain ⟨p, q, rfl⟩ : ∃ (p : Fin 10000) (q : Fin 128), y = ix2 p q := ⟨y 0, y 1, eq_ix2 y⟩
  refine (mlp_payload_apply (iblk0 V c 0 t) (iblk0 V c 1 t) (iblk0 V c 2 t) (iblk0 V c 3 t) (iblk0 V c 4 t) (iblk0 V c 5 t) p q).trans ?_
  rw [View.read_apply]
  unfold mlpArray
  refine mlpEntry_congr (iblk0 V c 0 t) (iblk0 V c 1 t) (V c main_v16) (V c main_v35) (iblk0 V c 2 t) (V c main_arg1) (iblk0 V c 3 t) (V c main_v36)
    (iblk0 V c 4 t) (V c main_arg3) (iblk0 V c 5 t) (V c main_v37) p _ q _
    (fun j => featBlock0 V c t p j _ ?_) (fun j => aggrBlock0 V c t p j _ ?_)
    (fun j k => weightA0 V c t j k) (fun k => biasA0 V c t k) (fun j k => weightB0 V c t j k) (fun k => biasB0 V c t k) (Fin.ext ?_)
  · show win0_6.index t (0 : Fin 2) * 10000 + 1 * p.val = t.val * 10000 + p.val; rw [e0]; omega
  · show win0_6.index t (0 : Fin 2) * 10000 + 1 * p.val = t.val * 10000 + p.val; rw [e0]; omega
  · show q.val = win0_6.index t (1 : Fin 2) * 128 + 1 * q.val; rw [e1]; omega

/-- An index of the result array lies in point t's block iff each coordinate lies in the block's range. -/
theorem mem_outBlock0 (t : Fin cfg0.N) (i : S200000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v38).slice (win0_6.rect t)).set ↔ _
  rw [View.set_slice_whole, Rect.mem_set_unit]
  exact Iff.rfl

/-- Row r lies in the block of point r / 10000: the 20 blocks tile the array. -/
theorem tiled0 (i : S200000x128.Idx) : ∃ t : Fin cfg0.N, (cfg0.win 6).flush t = true ∧ i ∈ ((cfg0.win 6).blk t).view.set := by
  have hi0 : (i 0).val < 200000 := (i 0).isLt
  have hi1 : (i 1).val < 128 := (i 1).isLt
  have hN : cfg0.N = 20 := N_0
  obtain ⟨t, ht⟩ : ∃ t : Fin cfg0.N, t.val = (i 0).val / 10000 := ⟨⟨(i 0).val / 10000, by rw [hN]; omega⟩, rfl⟩
  obtain ⟨-, -, -, -, -, -, -, -, -, -, -, -, e0, e1⟩ := blockIndex0 t
  refine ⟨t, flush0_6 t, ?_⟩
  rw [mem_outBlock0]
  intro a
  match a with
  | ⟨0, _⟩ => show win0_6.index t (0 : Fin 2) * 10000 ≤ (i 0).val ∧ (i 0).val < win0_6.index t (0 : Fin 2) * 10000 + 10000; rw [e0, ht]; omega
  | ⟨1, _⟩ => show win0_6.index t (1 : Fin 2) * 128 ≤ (i 1).val ∧ (i 1).val < win0_6.index t (1 : Fin 2) * 128 + 128; rw [e1]; omega

/-- THE RESULT ARRAY of the first perceptron call: `mlpArray` of the arrays it found. -/
theorem result0 (c : Dev nD) :
    (dat0 V c).arrAt 6 cfg0.N = mlpArray (V c main_v16) (V c main_v35) (V c main_arg1) (V c main_v36) (V c main_arg3) (V c main_v37) :=
  (dat0 V c).arrAt_eq_of_cover 6 _ (fun t _ => writtenBack0 V c t) tiled0

/-! ## The second perceptron call (region 1): the same body over the first call's result and the second aggregate -/

/-- The printed index maps of region 1, decided over its 20 points. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem featBlock1 (c : Dev nD) (t : Fin cfg1.N) (p : Fin 10000) (j : Fin 128) (r : Fin 200000) (hr : r.val = t.val * 10000 + p.val) :
    (iblk1 V c 0 t : Vec Ideal S10000x128 .f32) (ix2 p j) = (V c main_v38 : S200000x128.Idx → EReal) (ix2 r j) := by
  obtain ⟨e0, e1, -⟩ := blockIndex1 t
  unfold iblk1
  rw [View.read_apply]
  show V c main_v38 _ = V c main_v38 _
  congr 1
  funext a; apply Fin.ext
  match a with
  | ⟨0, _⟩ => show win1_0.index t (0 : Fin 2) * 10000 + 1 * p.val = r.val; rw [e0, hr]; omega
  | ⟨1, _⟩ => show win1_0.index t (1 : Fin 2) * 128 + 1 * j.val = j.val; rw [e1]; omega
theorem aggrBlock1 (c : Dev nD) (t : Fin cfg1.N) (p : Fin 10000) (j : Fin 128) (r : Fin 200000) (hr : r.val = t.val * 10000 + p.val) :
    (iblk1 V c 1 t : Vec Ideal S10000x128 .f32) (ix2 p j) = (V c main_v50 : S200000x128.Idx → EReal) (ix2 r j) := by
  obtain ⟨-, -, e0, e1, -⟩ := blockIndex1 t
  unfold iblk1
  rw [View.read_apply]
  show V c main_v50 _ = V c main_v50 _
  congr 1
  funext a; apply Fin.ext
  match a with
  | ⟨0, _⟩ => show win1_1.index t (0 : Fin 2) * 10000 + 1 * p.val = r.val; rw [e0, hr]; omega
  | ⟨1, _⟩ => show win1_1.index t (1 : Fin 2) * 128 + 1 * j.val = j.val; rw [e1]; omega
theorem weightA1 (c : Dev nD) (t : Fin cfg1.N) (j k : Fin 128) :
    (iblk1 V c 2 t : Vec Ideal S128x128 .f32) (ix2 j k) = (V c main_arg1 : S128x128.Idx → EReal) (ix2 j k) := by
  obtain ⟨-, -, -, -, e0, e1, -⟩ := blockIndex1 t
  unfold iblk1
  rw [View.read_apply]
  show V c main_arg1 _ = V c main_arg1 _
  congr 1
  funext a; apply Fin.ext
  match a with
  | ⟨0, _⟩ => show win1_2.index t (0 : Fin 2) * 128 + 1 * j.val = j.val; rw [e0]; omega
  | ⟨1, _⟩ => show win1_2.index t (1 : Fin 2) * 128 + 1 * k.val = k.val; rw [e1]; omega
theorem biasA1 (c : Dev nD) (t : Fin cfg1.N) (k : Fin 128) :
    (iblk1 V c 3 t : Vec Ideal S1x128 .f32) (ix2 (0 : Fin 1) k) = (V c main_v51 : S1x128.Idx → EReal) (ix2 (0 : Fin 1) k) := by
  obtain ⟨-, -, -, -, -, -, e0, e1, -⟩ := blockIndex1 t
  unfold iblk1
  rw [View.read_apply]
  show V c main_v51 _ = V c main_v51 _
  congr 1
  funext a; apply Fin.ext
  match a with
  | ⟨0, _⟩ => show win1_3.index t (0 : Fin 2) * 1 + 1 * 0 = 0; rw [e0]
  | ⟨1, _⟩ => show win1_3.index t (1 : Fin 2) * 128 + 1 * k.val = k.val; rw [e1]; omega
theorem weightB1 (c : Dev nD) (t : Fin cfg1.N) (j k : Fin 128) :
    (iblk1 V c 4 t : Vec Ideal S128x128 .f32) (ix2 j k) = (V c main_arg3 : S128x128.Idx → EReal) (ix2 j k) := by
  obtain ⟨-, -, -, -, -, -, -, -, e0, e1, -⟩ := blockIndex1 t
  unfold iblk1
  rw [View.read_apply]
  show V c main_arg3 _ = V c main_arg3 _
  congr 1
  funext a; apply Fin.ext
  match a with
  | ⟨0, _⟩ => show win1_4.index t (0 : Fin 2) * 128 + 1 * j.val = j.val; rw [e0]; omega
  | ⟨1, _⟩ => show win1_4.index t (1 : Fin 2) * 128 + 1 * k.val = k.val; rw [e1]; omega
theorem biasB1 (c : Dev nD) (t : Fin cfg1.N) (k : Fin 128) :
    (iblk1 V c 5 t : Vec Ideal S1x128 .f32) (ix2 (0 : Fin 1) k) = (V c main_v52 : S1x128.Idx → EReal) (ix2 (0 : Fin 1) k) := by
  obtain ⟨-, -, -, -, -, -, -, -, -, -, e0, e1, -⟩ := blockIndex1 t
  unfold iblk1
  rw [View.read_apply]
  show V c main_v52 _ = V c main_v52 _
  congr 1
  funext a; apply Fin.ext
  match a with
  | ⟨0, _⟩ => show win1_5.index t (0 : Fin 2) * 1 + 1 * 0 = 0; rw [e0]
  | ⟨1, _⟩ => show win1_5.index t (1 : Fin 2) * 128 + 1 * k.val = k.val; rw [e1]; omega

/-- WHAT POINT t WRITES BACK is block t of `mlpArray` of the arrays region 1 found. -/
theorem writtenBack1 (c : Dev nD) (t : Fin cfg1.N) :
    (dat1 V c).flushed 6 t = ((cfg1.win 6).blk t).view.read (Elt Ideal)
      (mlpArray (V c main_v38) (V c main_v50) (V c main_arg1) (V c main_v51) (V c main_arg3) (V c main_v52)) := by
  obtain ⟨-, -, -, -, -, -, -, -, -, -, -, -, e0, e1⟩ := blockIndex1 t
  show (cfg1.win 6).cut (grid1.coords t) ((dat1 V c).after 6 t) = _
  rw [after1_6]
  unfold out1_6
  rw [View.canon_unit_zero zeroOffsets]
  simp only [View.ld_unit_zero (S := S10000x128) zeroOffsets, View.ld_unit_zero (S := S128x128) zeroOffsets, View.ld_unit_zero (S := S1x128) zeroOffsets]
  funext y
  obtain ⟨p, q, rfl⟩ : ∃ (p : Fin 10000) (q : Fin 128), y = ix2 p q := ⟨y 0, y 1, eq_ix2 y⟩
  refine (mlp_payload_apply' (iblk1 V c 0 t) (iblk1 V c 1 t) (iblk1 V c 2 t) (iblk1 V c 3 t) (iblk1 V c 4 t) (iblk1 V c 5 t) p q).trans ?_
  rw [View.read_apply]
  unfold mlpArray
  refine mlpEntry_congr (iblk1 V c 0 t) (iblk1 V c 1 t) (V c main_v38) (V c main_v50) (iblk1 V c 2 t) (V c main_arg1) (iblk1 V c 3 t) (V c main_v51)
    (iblk1 V c 4 t) (V c main_arg3) (iblk1 V c 5 t) (V c main_v52) p _ q _
    (fun j => featBlock1 V c t p j _ ?_) (fun j => aggrBlock1 V c t p j _ ?_)
    (fun j k => weightA1 V c t j k) (fun k => biasA1 V c t k) (fun j k => weightB1 V c t j k) (fun k => biasB1 V c t k) (Fin.ext ?_)
  · show win1_6.index t (0 : Fin 2) * 10000 + 1 * p.val = t.val * 10000 + p.val; rw [e0]; omega
  · show win1_6.index t (0 : Fin 2) * 10000 + 1 * p.val = t.val * 10000 + p.val; rw [e0]; omega
  · show q.val = win1_6.index t (1 : Fin 2) * 128 + 1 * q.val; rw [e1]; omega

theorem mem_outBlock1 (t : Fin cfg1.N) (i : S200000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v53).slice (win1_6.rect t)).set ↔ _
  rw [View.set_slice_whole, Rect.mem_set_unit]
  exact Iff.rfl

theorem tiled1 (i : S200000x128.Idx) : ∃ t : Fin cfg1.N, (cfg1.win 6).flush t = true ∧ i ∈ ((cfg1.win 6).blk t).view.set := by
  have hi0 : (i 0).val < 200000 := (i 0).isLt
  have hi1 : (i 1).val < 128 := (i 1).isLt
  have hN : cfg1.N = 20 := N_1
  obtain ⟨t, ht⟩ : ∃ t : Fin cfg1.N, t.val = (i 0).val / 10000 := ⟨⟨(i 0).val / 10000, by rw [hN]; omega⟩, rfl⟩
  obtain ⟨-, -, -, -, -, -, -, -, -, -, -, -, e0, e1⟩ := blockIndex1 t
  refine ⟨t, flush1_6 t, ?_⟩
  rw [mem_outBlock1]
  intro a
  match a with
  | ⟨0, _⟩ => show win1_6.index t (0 : Fin 2) * 10000 ≤ (i 0).val ∧ (i 0).val < win1_6.index t (0 : Fin 2) * 10000 + 10000; rw [e0, ht]; omega
  | ⟨1, _⟩ => show win1_6.index t (1 : Fin 2) * 128 ≤ (i 1).val ∧ (i 1).val < win1_6.index t (1 : Fin 2) * 128 + 128; rw [e1]; omega

/-- THE RESULT ARRAY of the second perceptron call. -/
theorem result1 (c : Dev nD) :
    (dat1 V c).arrAt 6 cfg1.N = mlpArray (V c main_v38) (V c main_v50) (V c main_arg1) (V c main_v51) (V c main_arg3) (V c main_v52) :=
  (dat1 V c).arrAt_eq_of_cover 6 _ (fun t _ => writtenBack1 V c t) tiled1

/-! ## The residual call (region 2): 10 blocks of 5000 rows, x + max(g, 0) entry by entry -/

/-- The printed index maps of region 2, decided over its 10 points: all three windows sit at block (t, 0). -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Entry y of the averaged-aggregate block at point t is the array's entry under the result block's entry y. -/
theorem meanBlock2 (c : Dev nD) (t : Fin cfg2.N) (y : S5000x128.Idx) :
    (iblk2 V c 0 t : Vec Ideal S5000x128 .f32) y = (V c main_v69 : S50000x128.Idx → EReal) (((cfg2.win 2).blk t).view.emb y) := by
  unfold iblk2
  rw [View.read_apply]
  show V c main_v69 _ = V c main_v69 _
  -- the three windows of this call share one index map, so the two blocks sit over the same indices
  congr 1
/-- The same for the node features. -/
theorem nodeBlock2 (c : Dev nD) (t : Fin cfg2.N) (y : S5000x128.Idx) :
    (iblk2 V c 1 t : Vec Ideal S5000x128 .f32) y = (V c main_arg0 : S50000x128.Idx → EReal) (((cfg2.win 2).blk t).view.emb y) := by
  unfold iblk2
  rw [View.read_apply]
  show V c main_arg0 _ = V c main_arg0 _
  congr 1

/-- WHAT POINT t WRITES BACK is block t of `residualArray` of the two arrays region 2 found. -/
theorem writtenBack2 (c : Dev nD) (t : Fin cfg2.N) :
    (dat2 V c).flushed 2 t = ((cfg2.win 2).blk t).view.read (Elt Ideal) (residualArray (V c main_v69) (V c main_arg0)) := by
  show (cfg2.win 2).cut (grid2.coords t) ((dat2 V c).after 2 t) = _
  rw [after2_2]
  unfold out2_2
  rw [View.canon_unit_zero zeroOffsets]
  simp only [View.ld_unit_zero (S := S5000x128) zeroOffsets]
  funext y
  refine (residual_payload_apply (iblk2 V c 1 t) (iblk2 V c 0 t) y).trans ?_
  rw [View.read_apply, nodeBlock2 V c t y, meanBlock2 V c t y]
  rfl

theorem mem_outBlock2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v70).slice (win2_2.rect t)).set ↔ _
  rw [View.set_slice_whole, Rect.mem_set_unit]
  exact Iff.rfl

/-- Row r lies in the block of point r / 5000: the 10 blocks tile the array. -/
theorem tiled2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e0, e1⟩ := blockIndex2 t
  refine ⟨t, flush2_2 t, ?_⟩
  rw [mem_outBlock2]
  intro a
  match a with
  | ⟨0, _⟩ => show win2_2.index t (0 : Fin 2) * 5000 ≤ (i 0).val ∧ (i 0).val < win2_2.index t (0 : Fin 2) * 5000 + 5000; rw [e0, ht]; omega
  | ⟨1, _⟩ => show win2_2.index t (1 : Fin 2) * 128 ≤ (i 1).val ∧ (i 1).val < win2_2.index t (1 : Fin 2) * 128 + 128; rw [e1]; omega

/-- THE RESULT ARRAY of the residual call: the program's result. -/
theorem result2 (c : Dev nD) :
    (dat2 V c).arrAt 2 cfg2.N = residualArray (V c main_v69) (V c main_arg0) :=
  (dat2 V c).arrAt_eq_of_cover 2 _ (fun t _ => writtenBack2 V c t) tiled2

end Cert.Gine

end
-- ==== Proof.RefStages.lean ====
/-
  The reference's stages, read as the functions the kernel's three calls are stated in.

  Both GINE iterations of the reference run ONE chain of host operations on different inputs: with Y = X + A the
  features plus the aggregated messages,
      Y ↦ relu(Y · W₁ + b₁) · W₂ + b₂        (`hostLayer`),
  the bias [128] spread first to a row [1,128] and then over the 200000 rows. Read at entry (r, q) over the
  extended reals — a host `dot_general` is the plain sum over the contracted axis, a spread bias reads its column,
  relu is the maximum with the zero word — it is `mlpEntry` of X and A at row r: the formula the kernel's
  perceptron body computes block by block.

  The mean over incident edges is spelt two ways. The reference divides where the count n is positive,
      where(n > 0, S / max(n, 1), 0),
  the kernel multiplies by a guarded reciprocal,
      S · where(n > 0, 1 / max(n, 1), 0).
  On the extended reals they agree entry by entry with no finiteness asked of S: where n > 0 the divisor
  M = max(n, 1) is at least 1, so it is not 0 and both sides are S · M⁻¹ (the literal 1.0 is the real 1, and
  1 · M⁻¹ = M⁻¹); elsewhere S · 0 = 0, which holds for S = ±∞ too.

  The last stage adds max(g, 0) to the node features entry by entry: `residual_apply`.
-/
import proofs.«426953_j12463995093126_3_alg».proof.Proof.RefRead
import proofs.«426953_j12463995093126_3_alg».proof.Proof.MlpPayload
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.Gine.Ref

open Cert.ReferenceIdeal Cert.ReferenceIdeal.Gen Cert.ReferenceIdeal.Read

section AnyFamily

variable {F : FTy → Type} [FloatOps F]

/-- A bias vector as the row the host spreads it to. -/
def biasRow (b : FVec F S128 .f32) : FVec F S1x128 .f32 := broadcastInDim S1x128 ![1] bcast_S128_S1x128_1 b

/-- One perceptron layer as the reference's host operations spell it, of the summed input Y. -/
def hostLayer (Y : FVec F S200000x128 .f32) (W1 : FVec F S128x128 .f32) (b1 : FVec F S128 .f32) (W2 : FVec F S128x128 .f32)
    (b2 : FVec F S128 .f32) : FVec F S200000x128 .f32 :=
  addf (Host.dotGeneral dot_S200000x128_S128x128_S200000x128_1_0_0_1_n_n none
      (maximumf (addf (Host.dotGeneral dot_S200000x128_S128x128_S200000x128_1_0_0_1_n_n none Y W1) (broadcastInDim S200000x128 ![0, 1] bcast_S1x128_S200000x128_0_1 (biasRow b1)))
        (broadcastInDim S200000x128 ![] bcast_S_S200000x128 (constant S_ .f32 0x00000000#32))) W2)
    (broadcastInDim S200000x128 ![0, 1] bcast_S1x128_S200000x128_0_1 (biasRow b2))

/-- The first iteration's perceptron is `hostLayer` of features plus messages. -/
theorem layer1_eq (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 x6 : (⟨S200000, .i32⟩ : BufTy).Contents (Elt F)) (x7 x8 x9 : (⟨S801109, .i32⟩ : BufTy).Contents (Elt F)) :
    val_main_v45 (F := F) x0 x1 x2 x3 x4 x5 x6 x7 x8 x9 = hostLayer (val_main_v36 (F := F) x0 x5 x6 x7 x8 x9) x1 x2 x3 x4 := by
  unfold val_main_v45 val_main_v44 val_main_v43 val_main_v42 val_main_v41 val_main_call1_v0 val_main_call1_cst val_main_v40 val_main_v39
    val_main_v38 val_main_v37 hostLayer biasRow
  rfl

/-- The second iteration's perceptron is the same chain of the first one's result plus the second aggregate. -/
theorem layer2_eq (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 x6 : (⟨S200000, .i32⟩ : BufTy).Contents (Elt F)) (x7 x8 x9 : (⟨S801109, .i32⟩ : BufTy).Contents (Elt F)) :
    val_main_v67 (F := F) x0 x1 x2 x3 x4 x5 x6 x7 x8 x9 = hostLayer (val_main_v58 (F := F) x0 x1 x2 x3 x4 x5 x6 x7 x8 x9) x1 x2 x3 x4 := by
  unfold val_main_v67 val_main_v66 val_main_v65 val_main_v64 val_main_v63 val_main_call3_v0 val_main_call3_cst val_main_v62 val_main_v61
    val_main_v60 val_main_v59 hostLayer biasRow
  rfl

/-- The mean as the reference spells it: the quotient where the count is positive, zero elsewhere. -/
def meanByQuotient (S : FVec F S50000x128 .f32) (n : FVec F S50000x1 .f32) : FVec F S50000x128 .f32 :=
  select (broadcastInDim S50000x128 ![0, 1] bcast_S50000x1_S50000x128_0_1
      (cmpf (F := F) .ogt n (broadcastInDim S50000x1 ![] bcast_S_S50000x1 (constant S_ .f32 0x00000000#32))))
    (Host.divf S (broadcastInDim S50000x128 ![0, 1] bcast_S50000x1_S50000x128_0_1
      (maximumf n (broadcastInDim S50000x1 ![] bcast_S_S50000x1 (constant S_ .f32 0x3F800000#32)))))
    (broadcastInDim S50000x128 ![] bcast_S_S50000x128 (id (constant S_ .f32 0x00000000#32)))

/-- The mean as the kernel's host code spells it: the sums times the guarded reciprocal of the count. -/
def meanByReciprocal (S : FVec F S50000x128 .f32) (n : FVec F S50000x1 .f32) : FVec F S50000x128 .f32 :=
  mulf S (broadcastInDim S50000x128 ![0, 1] bcast_S50000x1_S50000x128_0_1
    (select (cmpf (F := F) .ogt n (broadcastInDim S50000x1 ![] bcast_S_S50000x1 (constant S_ .f32 0x00000000#32)))
      (Host.divf (broadcastInDim S50000x1 ![] bcast_S_S50000x1 (constant S_ .f32 0x3F800000#32))
        (maximumf n (broadcastInDim S50000x1 ![] bcast_S_S50000x1 (constant S_ .f32 0x3F800000#32))))
      (broadcastInDim S50000x1 ![] bcast_S_S50000x1 (id (constant S_ .f32 0x00000000#32)))))

/-- The reference's averaged aggregate is `meanByQuotient` of its sums and its counts. -/
theorem mean_eq (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 x6 : (⟨S200000, .i32⟩ : BufTy).Contents (Elt F)) (x7 x8 x9 : (⟨S801109, .i32⟩ : BufTy).Contents (Elt F)) :
    val_main_v81 (F := F) x0 x1 x2 x3 x4 x5 x6 x7 x8 x9 = meanByQuotient (val_main_v70 (F := F) x0 x1 x2 x3 x4 x5 x6 x7 x8 x9) (val_main_v74 (F := F) x6) := by
  unfold val_main_v81 val_main_call4_v2 val_main_call4_v1 val_main_call4_v0 val_main_cst_16 val_main_v80 val_main_v79 val_main_v78 val_main_v77
    val_main_cst_15 val_main_v76 val_main_v75 val_main_cst_14 meanByQuotient
  rfl

/-- The messages aggregated at the line-graph nodes, as both programs' host code spells it, of ANY feature array L
    and line-edge attributes E: gather L at the (wrapped) source indices, add E, take the positive part, and
    scatter-add at the target indices into zeros. Both iterations run this chain, the second on the first
    perceptron's result. -/
def aggregate (L : FVec F S200000x128 .f32) (E : FVec F S801109x128 .f32) (src dst : (⟨S801109, .i32⟩ : BufTy).Contents (Elt F)) : FVec F S200000x128 .f32 :=
  Host.scatterAdd scatter_S200000x128_S801109x1_S801109x128_1_0_0_1
    (broadcastInDim S200000x128 ![] bcast_S_S200000x128 (constant S_ .f32 0x00000000#32))
    (broadcastInDim S801109x1 ![0] bcast_S801109_S801109x1_0 dst)
    (maximumf
      (addf (Host.gather gather_S200000x128_S801109x1_S801109x128_1_0_n_n_0_1_1128 L
          (broadcastInDim S801109x1 ![0] bcast_S801109_S801109x1_0
            (select (cmpi .slt src (broadcastInDim S801109 ![] bcast_S_S801109 (constantI S_ 32 0#32)))
              (addi src (broadcastInDim S801109 ![] bcast_S_S801109 (constantI S_ 32 200000#32))) src))) E)
      (broadcastInDim S801109x128 ![] bcast_S_S801109x128 (constant S_ .f32 0x00000000#32)))

theorem aggregate1_eq (x0 : (⟨S50000x128, .f32⟩ : BufTy).Contents (Elt F)) (x5 x6 : (⟨S200000, .i32⟩ : BufTy).Contents (Elt F)) (x7 x8 x9 : (⟨S801109, .i32⟩ : BufTy).Contents (Elt F)) :
    val_main_v35 (F := F) x0 x5 x6 x7 x8 x9 = aggregate (val_main_v16 (F := F) x0 x5 x6) (val_main_v23 (F := F) x0 x9) x7 x8 := by
  unfold val_main_v35 val_main_v34 val_main_v33 val_main_cst_7 val_main_v32 val_main_call0_v0 val_main_call0_cst val_main_v31 val_main_v30
    val_main_v29 val_main_v28 val_main_v27 val_main_v26 val_main_c_6 val_main_v25 val_main_v24 val_main_c_5 aggregate
  rfl

theorem aggregate2_eq (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 x6 : (⟨S200000, .i32⟩ : BufTy).Contents (Elt F)) (x7 x8 x9 : (⟨S801109, .i32⟩ : BufTy).Contents (Elt F)) :
    val_main_v57 (F := F) x0 x1 x2 x3 x4 x5 x6 x7 x8 x9 = aggregate (val_main_v45 (F := F) x0 x1 x2 x3 x4 x5 x6 x7 x8 x9) (val_main_v23 (F := F) x0 x9) x7 x8 := by
  unfold val_main_v57 val_main_v56 val_main_v55 val_main_cst_10 val_main_v54 val_main_call2_v0 val_main_call2_cst val_main_v53 val_main_v52
    val_main_v51 val_main_v50 val_main_v49 val_main_v48 val_main_c_9 val_main_v47 val_main_v46 val_main_c_8 aggregate
  rfl

/-- The per-node sums of ANY line-graph feature array over the edges that end at the node. -/
def nodeSums (L : FVec F S200000x128 .f32) (dst : (⟨S200000, .i32⟩ : BufTy).Contents (Elt F)) : FVec F S50000x128 .f32 :=
  Host.scatterAdd scatter_S50000x128_S200000x1_S200000x128_1_0_0_1
    (broadcastInDim S50000x128 ![] bcast_S_S50000x128 (constant S_ .f32 0x00000000#32))
    (broadcastInDim S200000x1 ![0] bcast_S200000_S200000x1_0 dst) L

theorem nodeSums_eq (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 x6 : (⟨S200000, .i32⟩ : BufTy).Contents (Elt F)) (x7 x8 x9 : (⟨S801109, .i32⟩ : BufTy).Contents (Elt F)) :
    val_main_v70 (F := F) x0 x1 x2 x3 x4 x5 x6 x7 x8 x9 = nodeSums (val_main_v67 (F := F) x0 x1 x2 x3 x4 x5 x6 x7 x8 x9) x6 := by
  unfold val_main_v70 val_main_v69 val_main_v68 val_main_cst_11 nodeSums
  rfl

/-- What enters each perceptron: the features plus the aggregated messages. -/
theorem summed1_eq (x0 : (⟨S50000x128, .f32⟩ : BufTy).Contents (Elt F)) (x5 x6 : (⟨S200000, .i32⟩ : BufTy).Contents (Elt F)) (x7 x8 x9 : (⟨S801109, .i32⟩ : BufTy).Contents (Elt F)) :
    val_main_v36 (F := F) x0 x5 x6 x7 x8 x9 = addf (val_main_v16 (F := F) x0 x5 x6) (val_main_v35 (F := F) x0 x5 x6 x7 x8 x9) := rfl
theorem summed2_eq (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 x6 : (⟨S200000, .i32⟩ : BufTy).Contents (Elt F)) (x7 x8 x9 : (⟨S801109, .i32⟩ : BufTy).Contents (Elt F)) :
    val_main_v58 (F := F) x0 x1 x2 x3 x4 x5 x6 x7 x8 x9 = addf (val_main_v45 (F := F) x0 x1 x2 x3 x4 x5 x6 x7 x8 x9) (val_main_v57 (F := F) x0 x1 x2 x3 x4 x5 x6 x7 x8 x9) := rfl

end AnyFamily

/-! ## The layer, read at an entry over the extended reals -/

/-- A host product of a 200000-row matrix with a square one: entry (r, q) is Σₖ Y r k · W k q. -/
theorem hostDot_apply (Y : FVec Ideal S200000x128 .f32) (W : FVec Ideal S128x128 .f32) (r : Fin 200000) (q : Fin 128) :
    Host.dotGeneral (F := Ideal) dot_S200000x128_S128x128_S200000x128_1_0_0_1_n_n none Y W (ix2 r q) = ∑ k : Fin 128, Y (ix2 r k) * W (ix2 k q) := by
  simp only [Host.dotGeneral]
  rw [Ideal.dotGeneral_apply, ← Equiv.sum_comp (contrEquiv1 dot_S200000x128_S128x128_S200000x128_1_0_0_1_n_n 128 rfl rfl).symm]
  refine Finset.sum_congr rfl fun k _ => ?_
  have hk := contrEquiv1_symm_val dot_S200000x128_S128x128_S200000x128_1_0_0_1_n_n 128 rfl rfl k
  have el : dot_S200000x128_S128x128_S200000x128_1_0_0_1_n_n.lhsIdx (ix2 r q) ((contrEquiv1 dot_S200000x128_S128x128_S200000x128_1_0_0_1_n_n 128 rfl rfl).symm k) = ix2 r k := funext fun a => Fin.ext (by
    match a with
    | ⟨0, _⟩ => exact lhs_main_v37_0 _ _
    | ⟨1, _⟩ => exact (lhs_main_v37_1 _ _).trans hk)
  have er : dot_S200000x128_S128x128_S200000x128_1_0_0_1_n_n.rhsIdx (ix2 r q) ((contrEquiv1 dot_S200000x128_S128x128_S200000x128_1_0_0_1_n_n 128 rfl rfl).symm k) = ix2 k q := funext fun a => Fin.ext (by
    match a with
    | ⟨0, _⟩ => exact (rhs_main_v37_0 _ _).trans hk
    | ⟨1, _⟩ => exact rhs_main_v37_1 _ _)
  rw [el, er]

/-- A bias row spread over the rows reads its column. -/
theorem rowSpread_apply (b : FVec Ideal S1x128 .f32) (r : Fin 200000) (q : Fin 128) :
    broadcastInDim S200000x128 ![0, 1] bcast_S1x128_S200000x128_0_1 b (ix2 r q) = b (ix2 (0 : Fin 1) q) :=
  broadcastInDim_apply _ bcast_S1x128_S200000x128_0_1 b (ix2 r q) (ix2 (0 : Fin 1) q) (fun a => match a with
    | ⟨0, _⟩ => by show (0 : Nat) = if (1 : Nat) = 1 then 0 else r.val; rw [if_pos rfl]
    | ⟨1, _⟩ => by show q.val = if (128 : Nat) = 1 then 0 else q.val; rw [if_neg (by decide)])

/-- The zero word spread over the array reads the zero word. -/
theorem zeroSpread_apply (i : S200000x128.Idx) :
    broadcastInDim S200000x128 ![] bcast_S_S200000x128 (constant (F := Ideal) S_ .f32 0x00000000#32) i = Ideal.ofBits .f32 0x00000000#32 :=
  broadcastInDim_apply _ bcast_S_S200000x128 (constant (F := Ideal) S_ .f32 0x00000000#32) i ix0 (fun a => a.elim0)

/-- THE LAYER AT AN ENTRY: `hostLayer` of X + A at (r, q) is `mlpEntry` of X and A at row r. -/
theorem hostLayer_apply (X A : FVec Ideal S200000x128 .f32) (W1 : FVec Ideal S128x128 .f32) (b1 : FVec Ideal S128 .f32)
    (W2 : FVec Ideal S128x128 .f32) (b2 : FVec Ideal S128 .f32) (r : Fin 200000) (q : Fin 128) :
    hostLayer (F := Ideal) (addf X A) W1 b1 W2 b2 (ix2 r q) = mlpEntry X A W1 (biasRow b1) W2 (biasRow b2) r q := by
  unfold hostLayer mlpEntry
  rw [addf_apply, hostDot_apply, rowSpread_apply]
  refine congrArg (· + biasRow b2 (ix2 (0 : Fin 1) q)) (Finset.sum_congr rfl fun k _ => ?_)
  rw [maximumf_apply, addf_apply, hostDot_apply, rowSpread_apply, zeroSpread_apply]
  refine congrArg (fun z => max (z + biasRow b1 (ix2 (0 : Fin 1) k)) _ * W2 (ix2 k q)) (Finset.sum_congr rfl fun j _ => ?_)
  rw [addf_apply]

/-! ## The two spellings of the mean agree -/

/-- The literal 1.0 is the real 1. -/
theorem one_word : Ideal.ofBits .f32 0x3F800000#32 = 1 := by
  simp [Ideal.ofBits, Ideal.ieee, -EReal.coe_mul]; norm_num

/-- The scalar law: with M = max(n, 1), s · (if b then 1 / M else 0) = if b then s / M else 0, for every extended
    real s and n and either value of the bit. -/
theorem guarded_reciprocal (s n : EReal) (b : BitVec 1) :
    s * Scalar.select b (Ideal.div 1 (max n 1)) 0 = Scalar.select b (Ideal.div s (max n 1)) 0 := by
  have hM : max n 1 ≠ (0 : EReal) := ne_of_gt (lt_of_lt_of_le zero_lt_one (le_max_right n 1))
  unfold Scalar.select
  by_cases hb : b = 1
  · rw [if_pos hb, if_pos hb]
    unfold Ideal.div
    rw [if_neg hM, if_neg hM, one_mul]
  · rw [if_neg hb, if_neg hb, mul_zero]

/-- A [50000,1] column spread over the 128 lanes reads its row. -/
theorem colSpread_apply {α : Type} (v : S50000x1.Idx → α) (r : Fin 50000) (q : Fin 128) :
    broadcastInDim S50000x128 ![0, 1] bcast_S50000x1_S50000x128_0_1 v (ix2 r q) = v (ix2 r (0 : Fin 1)) :=
  broadcastInDim_apply _ bcast_S50000x1_S50000x128_0_1 v (ix2 r q) (ix2 r (0 : Fin 1)) (fun a => match a with
    | ⟨0, _⟩ => by show r.val = if (50000 : Nat) = 1 then 0 else r.val; rw [if_neg (by decide)]
    | ⟨1, _⟩ => by show (0 : Nat) = if (1 : Nat) = 1 then 0 else q.val; rw [if_pos rfl])

/-- A scalar word spread over a [50000,1] column reads the word. -/
theorem wordColumn_apply (w : BitVec 32) (j : S50000x1.Idx) :
    broadcastInDim S50000x1 ![] bcast_S_S50000x1 (constant (F := Ideal) S_ .f32 w) j = Ideal.ofBits .f32 w :=
  broadcastInDim_apply _ bcast_S_S50000x1 (constant (F := Ideal) S_ .f32 w) j ix0 (fun a => a.elim0)
theorem wordColumn_id_apply (w : BitVec 32) (j : S50000x1.Idx) :
    broadcastInDim S50000x1 ![] bcast_S_S50000x1 (id (constant (F := Ideal) S_ .f32 w)) j = Ideal.ofBits .f32 w :=
  wordColumn_apply w j
/-- A scalar word spread over the [50000,128] array reads the word. -/
theorem wordArray_id_apply (w : BitVec 32) (i : S50000x128.Idx) :
    broadcastInDim S50000x128 ![] bcast_S_S50000x128 (id (constant (F := Ideal) S_ .f32 w)) i = Ideal.ofBits .f32 w :=
  broadcastInDim_apply _ bcast_S_S50000x128 (constant (F := Ideal) S_ .f32 w) i ix0 (fun a => a.elim0)

/-- THE MEAN LAW: the guarded reciprocal times the sums is the guarded quotient, for all extended-real sums and counts. -/
theorem mean_law (S : FVec Ideal S50000x128 .f32) (n : FVec Ideal S50000x1 .f32) :
    meanByReciprocal (F := Ideal) S n = meanByQuotient (F := Ideal) S n := by
  funext i
  obtain ⟨r, q, rfl⟩ : ∃ (r : Fin 50000) (q : Fin 128), i = ix2 r q := ⟨i 0, i 1, eq_ix2 i⟩
  unfold meanByReciprocal meanByQuotient
  rw [mulf_apply, colSpread_apply, select_apply, select_apply, colSpread_apply, wordColumn_id_apply, wordArray_id_apply]
  show S (ix2 r q) * Scalar.select _ (Ideal.div (broadcastInDim S50000x1 ![] bcast_S_S50000x1 (constant (F := Ideal) S_ .f32 0x3F800000#32) (ix2 r (0 : Fin 1)))
      (max (n (ix2 r (0 : Fin 1))) (broadcastInDim S50000x1 ![] bcast_S_S50000x1 (constant (F := Ideal) S_ .f32 0x3F800000#32) (ix2 r (0 : Fin 1))))) _
    = Scalar.select _ (Ideal.div (S (ix2 r q)) (broadcastInDim S50000x128 ![0, 1] bcast_S50000x1_S50000x128_0_1
        (maximumf n (broadcastInDim S50000x1 ![] bcast_S_S50000x1 (constant (F := Ideal) S_ .f32 0x3F800000#32))) (ix2 r q))) _
  rw [colSpread_apply, maximumf_apply, wordColumn_apply, Ideal.ofBits_zero_f32, one_word]
  exact guarded_reciprocal _ _ _

/-! ## The last stage -/

/-- The reference's result at an entry: the node feature plus the positive part of the averaged aggregate. -/
theorem residual_apply (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 x6 : (⟨S200000, .i32⟩ : BufTy).Contents (Elt Ideal)) (x7 x8 x9 : (⟨S801109, .i32⟩ : BufTy).Contents (Elt Ideal)) (i : S50000x128.Idx) :
    val_main_v83 (F := Ideal) x0 x1 x2 x3 x4 x5 x6 x7 x8 x9 i = x0 i + max (val_main_v81 (F := Ideal) x0 x1 x2 x3 x4 x5 x6 x7 x8 x9 i) (Ideal.ofBits .f32 0x00000000#32) := by
  rw [val_main_v83_apply, val_main_v82_apply, val_main_call5_v0_apply, val_main_call5_cst_apply]
  rfl

end Cert.Gine.Ref

end
-- ==== Proof.KernelValue.lean ====
/-
  The kernel program's result buffer, read through the fold of its segments, is the reference's last stage.

  The generated frame records what every buffer holds at each boundary of @main's twelve segments: W0 the launch
  memory, W1 … W3 after the three host stretches before the first perceptron call, W4 after that call (its result
  array at what the 20 write-backs leave, every other buffer as it was), W5 … W7, W8, W9 … W11 likewise, and W12
  after the residual call. This module walks that fold once.

  Host stretches. Both programs run the same host operations, so a buffer after a stretch is the reference's stage
  of the same operations: the endpoint-mean features, the line-edge attributes, the aggregated messages
  (`aggregate` of whatever feature array the stretch found), the per-node sums (`nodeSums`), the counts. These
  equations hold for every float family, and are stated so: nothing in them evaluates an operation.

  Calls. Over the extended reals a perceptron call leaves `mlpArray` of the arrays it found (RegionFinal), which is
  the reference's `hostLayer` of features plus messages entry by entry (RefStages), the bias row made by a reshape
  on one side and by a spread on the other being the same row; the residual call leaves x + max(g, 0), where g is
  the mean in the kernel's spelling, equal to the reference's by the mean law.
-/
import proofs.«426953_j12463995093126_3_alg».proof.Proof.RegionFinal
import proofs.«426953_j12463995093126_3_alg».proof.Proof.RefStages
import Idealize.ShloMosaic.Lib.StableHlo.Run
import Idealize.ShloMosaic.Lib.ValueLayout

set_option maxRecDepth 16384

noncomputable section

open scoped BigOperators
open Idealize.ShloMosaic Idealize.ShloMosaic.TcCoe Idealize.ShloMosaic.ValueIdx Idealize.ShloMosaic.StableHlo Idealize.SL.Sem
open Idealize.ShloMosaic.Pipeline (Dat)

namespace Cert.Gine

open Cert.KernelIdeal Cert.KernelIdeal.Gen

section AnyFamily

variable {F : FTy → Type} [FloatOps F]
variable (m : (ℓ : Loc nD τ sig) → Buf (Elt F) ℓ) (ρ : Dev nD → PrngReg)

/-! ## Entering the first perceptron call: the three host stretches from the launch memory -/

set_option maxHeartbeats 4000000 in
/-- The features the first call finds: the mean of the two endpoint rows of each edge. -/
theorem entry0_feat (c : Dev nD) :
    W3 m ρ c (Proc.devRef .tc main_v16) = Cert.ReferenceIdeal.Read.val_main_v16 (F := F) (m ((c.tc : Thread nD τ).loc main_arg0)) (m ((c.tc : Thread nD τ).loc main_arg5)) (m ((c.tc : Thread nD τ).loc main_arg6)) := by
  show StableHlo.after hostOps0_2 (StableHlo.after hostOps0_1 (StableHlo.after hostOps0 (W0 m ρ c))) (Proc.devRef .tc main_v16) = _
  after_results_simp
  rfl

set_option maxHeartbeats 4000000 in
/-- The line-edge attributes, gathered once and read by both iterations. -/
theorem entry0_attr (c : Dev nD) :
    W3 m ρ c (Proc.devRef .tc main_v23) = Cert.ReferenceIdeal.Read.val_main_v23 (F := F) (m ((c.tc : Thread nD τ).loc main_arg0)) (m ((c.tc : Thread nD τ).loc main_arg9)) := by
  show StableHlo.after hostOps0_2 (StableHlo.after hostOps0_1 (StableHlo.after hostOps0 (W0 m ρ c))) (Proc.devRef .tc main_v23) = _
  after_results_simp
  rfl

set_option maxHeartbeats 4000000 in
/-- The first aggregate: `aggregate` of those features. -/
theorem entry0_aggr (c : Dev nD) :
    W3 m ρ c (Proc.devRef .tc main_v35) = Ref.aggregate (Cert.ReferenceIdeal.Read.val_main_v16 (F := F) (m ((c.tc : Thread nD τ).loc main_arg0)) (m ((c.tc : Thread nD τ).loc main_arg5)) (m ((c.tc : Thread nD τ).loc main_arg6))) (Cert.ReferenceIdeal.Read.val_main_v23 (F := F) (m ((c.tc : Thread nD τ).loc main_arg0)) (m ((c.tc : Thread nD τ).loc main_arg9))) (m ((c.tc : Thread nD τ).loc main_arg7)) (m ((c.tc : Thread nD τ).loc main_arg8)) := by
  show StableHlo.after hostOps0_2 (StableHlo.after hostOps0_1 (StableHlo.after hostOps0 (W0 m ρ c))) (Proc.devRef .tc main_v35) = _
  after_results_simp
  rfl

set_option maxHeartbeats 4000000 in
/-- The two bias rows, made by a reshape. -/
theorem entry0_bias1 (c : Dev nD) :
    W3 m ρ c (Proc.devRef .tc main_v36) = shapeCast S1x128 (m ((c.tc : Thread nD τ).loc main_arg2)) shapeCasts_S128_S1x128 := by
  show StableHlo.after hostOps0_2 (StableHlo.after hostOps0_1 (StableHlo.after hostOps0 (W0 m ρ c))) (Proc.devRef .tc main_v36) = _
  after_results_simp <;> rfl
set_option maxHeartbeats 4000000 in
theorem entry0_bias2 (c : Dev nD) :
    W3 m ρ c (Proc.devRef .tc main_v37) = shapeCast S1x128 (m ((c.tc : Thread nD τ).loc main_arg4)) shapeCasts_S128_S1x128 := by
  show StableHlo.after hostOps0_2 (StableHlo.after hostOps0_1 (StableHlo.after hostOps0 (W0 m ρ c))) (Proc.devRef .tc main_v37) = _
  after_results_simp <;> rfl

set_option maxHeartbeats 4000000 in
/-- No host operation writes an argument. -/
theorem entry0_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp <;> rfl
set_option maxHeartbeats 4000000 in
theorem entry0_arg1 (c : Dev nD) : W3 m ρ c (Proc.devRef .tc main_arg1) = m ((c.tc : Thread nD τ).loc main_arg1) := by
  show StableHlo.after hostOps0_2 (StableHlo.after hostOps0_1 (StableHlo.after hostOps0 (W0 m ρ c))) (Proc.devRef .tc main_arg1) = _
  after_results_simp <;> rfl
set_option maxHeartbeats 4000000 in
theorem entry0_arg2 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp <;> rfl
set_option maxHeartbeats 4000000 in
theorem entry0_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp <;> rfl
set_option maxHeartbeats 4000000 in
theorem entry0_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp <;> rfl
set_option maxHeartbeats 4000000 in
theorem entry0_arg6 (c : Dev nD) : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results_simp <;> rfl
set_option maxHeartbeats 4000000 in
theorem entry0_arg7 (c : Dev nD) : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  after_results_simp <;> rfl
set_option maxHeartbeats 4000000 in
theorem entry0_arg8 (c : Dev nD) : W3 m ρ c (Proc.devRef .tc main_arg8) = m ((c.tc : Thread nD τ).loc main_arg8) := by
  show StableHlo.after hostOps0_2 (StableHlo.after hostOps0_1 (StableHlo.after hostOps0 (W0 m ρ c))) (Proc.devRef .tc main_arg8) = _
  after_results_simp <;> rfl

/-! ## Across the first call: only its result array changes -/

theorem across0_attr (c : Dev nD) : W4 m ρ c (Proc.devRef .tc main_v23) = W3 m ρ c (Proc.devRef .tc main_v23) := W4_of_ne m ρ c main_v23 (by decide)
theorem across0_arg0 (c : Dev nD) : W4 m ρ c (Proc.devRef .tc main_arg0) = W3 m ρ c (Proc.devRef .tc main_arg0) := W4_of_ne m ρ c main_arg0 (by decide)
theorem across0_arg2 (c : Dev nD) : W4 m ρ c (Proc.devRef .tc main_arg2) = W3 m ρ c (Proc.devRef .tc main_arg2) := W4_of_ne m ρ c main_arg2 (by decide)
theorem across0_arg4 (c : Dev nD) : W4 m ρ c (Proc.devRef .tc main_arg4) = W3 m ρ c (Proc.devRef .tc main_arg4) := W4_of_ne m ρ c main_arg4 (by decide)
theorem across0_arg6 (c : Dev nD) : W4 m ρ c (Proc.devRef .tc main_arg6) = W3 m ρ c (Proc.devRef .tc main_arg6) := W4_of_ne m ρ c main_arg6 (by decide)
theorem across0_arg7 (c : Dev nD) : W4 m ρ c (Proc.devRef .tc main_arg7) = W3 m ρ c (Proc.devRef .tc main_arg7) := W4_of_ne m ρ c main_arg7 (by decide)
theorem across0_arg8 (c : Dev nD) : W4 m ρ c (Proc.devRef .tc main_arg8) = W3 m ρ c (Proc.devRef .tc main_arg8) := W4_of_ne m ρ c main_arg8 (by decide)
/-- A weight matrix is an input window's array: the call reads it and leaves it. -/
theorem across0_arg1 (c : Dev nD) : W4 m ρ c (Proc.devRef .tc main_arg1) = W3 m ρ c (Proc.devRef .tc main_arg1) :=
  (W4_arr m ρ c 2).trans (((dat0 (V3 m ρ) c).arrAt_in 2 rfl _).trans (A_eq0 (V3 m ρ) c 2))
theorem across0_arg3 (c : Dev nD) : W4 m ρ c (Proc.devRef .tc main_arg3) = W3 m ρ c (Proc.devRef .tc main_arg3) :=
  (W4_arr m ρ c 4).trans (((dat0 (V3 m ρ) c).arrAt_in 4 rfl _).trans (A_eq0 (V3 m ρ) c 4))

/-! ## Entering the second perceptron call: the three host stretches from the first call's exit -/

set_option maxHeartbeats 4000000 in
/-- The second aggregate: `aggregate` of the first call's result. -/
theorem entry1_aggr (c : Dev nD) :
    W7 m ρ c (Proc.devRef .tc main_v50) = Ref.aggregate (W4 m ρ c (Proc.devRef .tc main_v38)) (W4 m ρ c (Proc.devRef .tc main_v23)) (W4 m ρ c (Proc.devRef .tc main_arg7)) (W4 m ρ c (Proc.devRef .tc main_arg8)) := by
  show StableHlo.after hostOps1_2 (StableHlo.after hostOps1_1 (StableHlo.after hostOps1 (W4 m ρ c))) (Proc.devRef .tc main_v50) = _
  after_results_simp
  rfl
set_option maxHeartbeats 4000000 in
theorem entry1_feat (c : Dev nD) : W7 m ρ c (Proc.devRef .tc main_v38) = W4 m ρ c (Proc.devRef .tc main_v38) := by
  show StableHlo.after hostOps1_2 (StableHlo.after hostOps1_1 (StableHlo.after hostOps1 (W4 m ρ c))) (Proc.devRef .tc main_v38) = _
  after_results_simp <;> rfl
set_option maxHeartbeats 4000000 in
theorem entry1_bias1 (c : Dev nD) :
    W7 m ρ c (Proc.devRef .tc main_v51) = shapeCast S1x128 (W4 m ρ c (Proc.devRef .tc main_arg2)) shapeCasts_S128_S1x128 := by
  show StableHlo.after hostOps1_2 (StableHlo.after hostOps1_1 (StableHlo.after hostOps1 (W4 m ρ c))) (Proc.devRef .tc main_v51) = _
  after_results_simp <;> rfl
set_option maxHeartbeats 4000000 in
theorem entry1_bias2 (c : Dev nD) :
    W7 m ρ c (Proc.devRef .tc main_v52) = shapeCast S1x128 (W4 m ρ c (Proc.devRef .tc main_arg4)) shapeCasts_S128_S1x128 := by
  show StableHlo.after hostOps1_2 (StableHlo.after hostOps1_1 (StableHlo.after hostOps1 (W4 m ρ c))) (Proc.devRef .tc main_v52) = _
  after_results_simp <;> rfl
set_option maxHeartbeats 4000000 in
theorem entry1_arg0 (c : Dev nD) : W7 m ρ c (Proc.devRef .tc main_arg0) = W4 m ρ c (Proc.devRef .tc main_arg0) := by
  show StableHlo.after hostOps1_2 (StableHlo.after hostOps1_1 (StableHlo.after hostOps1 (W4 m ρ c))) (Proc.devRef .tc main_arg0) = _
  after_results_simp <;> rfl
set_option maxHeartbeats 4000000 in
theorem entry1_arg1 (c : Dev nD) : W7 m ρ c (Proc.devRef .tc main_arg1) = W4 m ρ c (Proc.devRef .tc main_arg1) := by
  show StableHlo.after hostOps1_2 (StableHlo.after hostOps1_1 (StableHlo.after hostOps1 (W4 m ρ c))) (Proc.devRef .tc main_arg1) = _
  after_results_simp <;> rfl
set_option maxHeartbeats 4000000 in
theorem entry1_arg3 (c : Dev nD) : W7 m ρ c (Proc.devRef .tc main_arg3) = W4 m ρ c (Proc.devRef .tc main_arg3) := by
  show StableHlo.after hostOps1_2 (StableHlo.after hostOps1_1 (StableHlo.after hostOps1 (W4 m ρ c))) (Proc.devRef .tc main_arg3) = _
  after_results_simp <;> rfl
set_option maxHeartbeats 4000000 in
theorem entry1_arg6 (c : Dev nD) : W7 m ρ c (Proc.devRef .tc main_arg6) = W4 m ρ c (Proc.devRef .tc main_arg6) := by
  show StableHlo.after hostOps1_2 (StableHlo.after hostOps1_1 (StableHlo.after hostOps1 (W4 m ρ c))) (Proc.devRef .tc main_arg6) = _
  after_results_simp <;> rfl

/-! ## Across the second call -/

theorem across1_arg0 (c : Dev nD) : W8 m ρ c (Proc.devRef .tc main_arg0) = W7 m ρ c (Proc.devRef .tc main_arg0) := W8_of_ne m ρ c main_arg0 (by decide)
theorem across1_arg6 (c : Dev nD) : W8 m ρ c (Proc.devRef .tc main_arg6) = W7 m ρ c (Proc.devRef .tc main_arg6) := W8_of_ne m ρ c main_arg6 (by decide)

/-! ## Entering the residual call: the three host stretches from the second call's exit -/

set_option maxHeartbeats 4000000 in
/-- The averaged aggregate in the kernel's spelling: the per-node sums of the second call's result times the guarded
    reciprocal of the per-node counts. -/
theorem entry2_mean (c : Dev nD) :
    W11 m ρ c (Proc.devRef .tc main_v69) = Ref.meanByReciprocal (Ref.nodeSums (W8 m ρ c (Proc.devRef .tc main_v53)) (W8 m ρ c (Proc.devRef .tc main_arg6))) (Cert.ReferenceIdeal.Read.val_main_v74 (F := F) (W8 m ρ c (Proc.devRef .tc main_arg6))) := by
  show StableHlo.after hostOps2_2 (StableHlo.after hostOps2_1 (StableHlo.after hostOps2 (W8 m ρ c))) (Proc.devRef .tc main_v69) = _
  after_results_simp
  rfl
set_option maxHeartbeats 4000000 in
theorem entry2_arg0 (c : Dev nD) : W11 m ρ c (Proc.devRef .tc main_arg0) = W8 m ρ c (Proc.devRef .tc main_arg0) := by
  show StableHlo.after hostOps2_2 (StableHlo.after hostOps2_1 (StableHlo.after hostOps2 (W8 m ρ c))) (Proc.devRef .tc main_arg0) = _
  after_results_simp <;> rfl

/-- The node features reach the residual call as launched. -/
theorem entry2_nodes (c : Dev nD) : W11 m ρ c (Proc.devRef .tc main_arg0) = m ((c.tc : Thread nD τ).loc main_arg0) :=
  (entry2_arg0 m ρ c).trans ((across1_arg0 m ρ c).trans ((entry1_arg0 m ρ c).trans ((across0_arg0 m ρ c).trans (entry0_arg0 m ρ c))))
/-- The edge targets reach the last host stretch as launched. -/
theorem exit1_col1 (c : Dev nD) : W8 m ρ c (Proc.devRef .tc main_arg6) = m ((c.tc : Thread nD τ).loc main_arg6) :=
  (across1_arg6 m ρ c).trans ((entry1_arg6 m ρ c).trans ((across0_arg6 m ρ c).trans (entry0_arg6 m ρ c)))

end AnyFamily

/-! ## Over the extended reals: what the three calls leave -/

section ExtendedReals

variable (m : (ℓ : Loc nD τ sig) → Buf (Elt Ideal) ℓ) (ρ : Dev nD → PrngReg)

/-- A bias vector reshaped to a row is the bias vector spread to a row: entry (0, k) of either is entry k. -/
theorem biasRow_reshape (b : FVec Ideal S128 .f32) :
    shapeCast S1x128 b shapeCasts_S128_S1x128 = Ref.biasRow (F := Ideal) b := by
  funext j
  obtain ⟨u, k, rfl⟩ : ∃ (u : Fin 1) (k : Fin 128), j = ix2 u k := ⟨j 0, j 1, eq_ix2 j⟩
  unfold Ref.biasRow
  rw [shapeCast_a_1a_apply]
  exact (broadcastInDim_apply _ _ b (ix2 u k) (ix1 k) (fun a => match a with
    | ⟨0, _⟩ => by show k.val = if (128 : Nat) = 1 then 0 else k.val; rw [if_neg (by decide)])).symm

/-- `mlpArray` over reshaped bias rows is the reference's layer of features plus messages: both are `mlpEntry`
    entry by entry. -/
theorem mlpArray_eq_hostLayer (X A : FVec Ideal S200000x128 .f32) (W1 : FVec Ideal S128x128 .f32) (b1 : FVec Ideal S128 .f32)
    (W2 : FVec Ideal S128x128 .f32) (b2 : FVec Ideal S128 .f32) :
    mlpArray X A W1 (shapeCast S1x128 b1 shapeCasts_S128_S1x128) W2 (shapeCast S1x128 b2 shapeCasts_S128_S1x128)
      = Ref.hostLayer (F := Ideal) (addf X A) W1 b1 W2 b2 := by
  rw [biasRow_reshape, biasRow_reshape]
  funext i
  obtain ⟨r, q, rfl⟩ : ∃ (r : Fin 200000) (q : Fin 128), i = ix2 r q := ⟨i 0, i 1, eq_ix2 i⟩
  rw [Ref.hostLayer_apply]
  rfl

/-- THE FIRST CALL'S RESULT is the reference's first perceptron stage. -/
theorem exit0_feat (c : Dev nD) :
    W4 m ρ c (Proc.devRef .tc main_v38) = Cert.ReferenceIdeal.Read.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [Ref.layer1_eq, Ref.summed1_eq, Ref.aggregate1_eq]
  refine (W4_arr m ρ c 6).trans ((result0 (V3 m ρ) c).trans ?_)
  show mlpArray (W3 m ρ c (Proc.devRef .tc main_v16)) (W3 m ρ c (Proc.devRef .tc main_v35)) (W3 m ρ c (Proc.devRef .tc main_arg1)) (W3 m ρ c (Proc.devRef .tc main_v36)) (W3 m ρ c (Proc.devRef .tc main_arg3)) (W3 m ρ c (Proc.devRef .tc main_v37)) = _
  rw [entry0_feat, entry0_aggr, entry0_arg1, entry0_bias1, entry0_arg3, entry0_bias2]
  exact mlpArray_eq_hostLayer _ _ _ _ _ _

/-- THE SECOND CALL'S RESULT is the reference's second perceptron stage: the same layer of the first result plus
    the second aggregate. -/
theorem exit1_feat (c : Dev nD) :
    W8 m ρ c (Proc.devRef .tc main_v53) = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [Ref.layer2_eq, Ref.summed2_eq, Ref.aggregate2_eq]
  refine (W8_arr m ρ c 6).trans ((result1 (V7 m ρ) c).trans ?_)
  show mlpArray (W7 m ρ c (Proc.devRef .tc main_v38)) (W7 m ρ c (Proc.devRef .tc main_v50)) (W7 m ρ c (Proc.devRef .tc main_arg1)) (W7 m ρ c (Proc.devRef .tc main_v51)) (W7 m ρ c (Proc.devRef .tc main_arg3)) (W7 m ρ c (Proc.devRef .tc main_v52)) = _
  rw [entry1_feat, entry1_aggr, entry1_arg1, entry1_bias1, entry1_arg3, entry1_bias2,
    across0_arg1, across0_arg3, across0_arg2, across0_arg4, across0_attr, across0_arg7, across0_arg8,
    entry0_arg1, entry0_arg3, entry0_arg2, entry0_arg4, entry0_attr, entry0_arg7, entry0_arg8, exit0_feat]
  exact mlpArray_eq_hostLayer _ _ _ _ _ _

/-- THE PROGRAM'S RESULT: the residual call leaves x + max(g, 0) with g the mean in the kernel's spelling; by the mean
    law that is the reference's last stage. -/
theorem result_value (c : Dev nD) :
    W12 m ρ c (Proc.devRef .tc main_v70) = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W12_arr m ρ c 2).trans ((result2 (V11 m ρ) c).trans ?_)
  show residualArray (W11 m ρ c (Proc.devRef .tc main_v69)) (W11 m ρ c (Proc.devRef .tc main_arg0)) = _
  rw [entry2_mean, entry2_nodes, exit1_col1, exit1_feat, Ref.mean_law, ← Ref.nodeSums_eq, ← Ref.mean_eq]
  funext i
  exact (Ref.residual_apply _ _ _ _ _ _ _ _ _ _ i).symm

end ExtendedReals

end Cert.Gine

end
-- ==== Proof.lean ====
/-
  Line-graph GINE message passing, two iterations, followed by a mean over incident edges and a residual step:
  the kernel program against its reference, equal over the extended reals.

  Both programs gather the endpoint-mean features of the 200000 edges and the attributes of the 801109 line edges,
  and twice aggregate relu(L[src] + E) at the line-graph targets and pass features plus messages through the
  perceptron relu(· W₁ + b₁) W₂ + b₂; they then average the result over the edges ending at each of the 50000 nodes
  and add the positive part of that average to the node features. The programs differ in three places, and each is
  an identity on the extended reals that asks nothing of the inputs:
    • the perceptron runs in a kernel over 20 row blocks, each product into a zero accumulator, against the host's
      two whole `dot_general`s: entry by entry both are the same double sum (a row of the result reads one row of
      the input, and the blocks tile the rows);
    • the average is the sums times where(n > 0, 1 / max(n, 1), 0) against where(n > 0, sums / max(n, 1), 0):
      the divisor max(n, 1) is never 0, so both are sums · max(n, 1)⁻¹ where n > 0, and s · 0 = 0 elsewhere, at
      s = ±∞ as well;
    • the residual step runs in a kernel over 10 row blocks against the host's maximum and add, entry by entry.
  Everything else — the gathers, the scatter-adds, the index wrapping — is the same host operations applied to equal
  values, carried as one function on both sides and never opened. The precondition (finite float inputs) is not used.

  The three frames are the generated ones (the reference's is its run with the result dropped); the ideal pass rewrote
  nothing, so `preserves` is `True`.
-/
import proofs.«426953_j12463995093126_3_alg».proof.Defs
import proofs.«426953_j12463995093126_3_alg».proof.Proof.Gen.Kernel
import proofs.«426953_j12463995093126_3_alg».proof.Proof.Gen.Kernel.Frame
import proofs.«426953_j12463995093126_3_alg».proof.Proof.Gen.KernelIdeal
import proofs.«426953_j12463995093126_3_alg».proof.Proof.Gen.KernelIdeal.Frame
import proofs.«426953_j12463995093126_3_alg».proof.Proof.Gen.ReferenceIdeal
import proofs.«426953_j12463995093126_3_alg».proof.Proof.Gen.Pre_finite_inputs
import proofs.«426953_j12463995093126_3_alg».proof.Proof.RefRead
import proofs.«426953_j12463995093126_3_alg».proof.Proof.KernelRun
import proofs.«426953_j12463995093126_3_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the ten arguments both programs end, the arguments unchanged, with the kernel
    program's result buffer at the last contents of its fold and the reference's at its last stage of the same
    arguments: one array (`Cert.Gine.result_value`). -/
theorem algebraic : Cert.algebraic_KernelIdeal_ReferenceIdeal := by
  intro m ρ m' ρ' _ hagree
  refine ⟨fun c => Cert.KernelIdeal.Gen.W12 m ρ c (Proc.devRef .tc Cert.KernelIdeal.main_v70),
    Cert.KernelIdeal.Result.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v83_eq]
  obtain ⟨e0, e1, e2, e3, e4, e5, e6, e7, e8, e9⟩ := hagree c
  rw [e0, e1, e2, e3, e4, e5, e6, e7, e8, e9]
  exact (Cert.Gine.result_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
